-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S8192 : Shape := ⟨1, ![8192]⟩
abbrev S10x4096 : Shape := ⟨2, ![10, 4096]⟩
abbrev S100000x10 : Shape := ⟨2, ![100000, 10]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S10x4096 : S_.BroadcastsInDim S10x4096 (![] : Fin 0 → Fin S10x4096.rank)
  reducesTo_S10x4096_S_d0_1 : S10x4096.ReducesTo [0, 1] S_
  bcast_S_S100000x10 : S_.BroadcastsInDim S100000x10 (![] : Fin 0 → Fin S100000x10.rank)
  reducesTo_S100000x10_S_d0_1 : S100000x10.ReducesTo [0, 1] S_

variable [Facts]

def fn {F : FTy → Type} [FloatOps F] (main_arg0 : FVec F S4096x8192 .f32) (main_arg1 : IVec S8192 32) (main_arg2 : FVec F S10x4096 .f32) (main_arg3 : FVec F S100000x10 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S10x4096 .f32 := Host.absf main_arg2
  let main_cst_0 : FVec F S_ .f32 := constant S_ .f32 0x7F800000#32
  let main_v5 : FVec F S10x4096 .f32 := broadcastInDim S10x4096 ![] bcast_S_S10x4096 main_cst_0
  let main_v6 : IVec S10x4096 1 := cmpf .olt main_v4 main_v5
  let main_c_1 : IVec S_ 1 := constantI S_ 1 1#1
  let main_v7 : IVec S_ 1 := (fun x v => Host.reduce IntOp.andi x v reducesTo_S10x4096_S_d0_1 h_S_) main_v6 main_c_1
  let main_v8 : IVec S_ 1 := andi main_v3 main_v7
  let main_v9 : FVec F S100000x10 .f32 := Host.absf main_arg3
  let main_cst_2 : FVec F S_ .f32 := constant S_ .f32 0x7F800000#32
  let main_v10 : FVec F S100000x10 .f32 := broadcastInDim S100000x10 ![] bcast_S_S100000x10 main_cst_2
  let main_v11 : IVec S100000x10 1 := cmpf .olt main_v9 main_v10
  let main_c_3 : IVec S_ 1 := constantI S_ 1 1#1
  let main_v12 : IVec S_ 1 := (fun x v => Host.reduce IntOp.andi x v reducesTo_S100000x10_S_d0_1 h_S_) main_v11 main_c_3
  let main_v13 : IVec S_ 1 := andi main_v8 main_v12
  main_v13
-- ==== Kernel.lean ====
abbrev S4096x8192 : Shape := ⟨2, ![4096, 8192]⟩
abbrev S8192 : Shape := ⟨1, ![8192]⟩
abbrev S10x4096 : Shape := ⟨2, ![10, 4096]⟩
abbrev S100000x10 : Shape := ⟨2, ![100000, 10]⟩
abbrev S_ : Shape := ⟨0, ![]⟩
abbrev S8192x1 : Shape := ⟨2, ![8192, 1]⟩
abbrev S8192x10 : Shape := ⟨2, ![8192, 10]⟩
abbrev S4096x10 : Shape := ⟨2, ![4096, 10]⟩
abbrev S10x8192 : Shape := ⟨2, ![10, 8192]⟩
abbrev S1x1 : Shape := ⟨2, ![1, 1]⟩
abbrev S1024x1024 : Shape := ⟨2, ![1024, 1024]⟩
abbrev S1024x10 : Shape := ⟨2, ![1024, 10]⟩
abbrev S10x1024 : Shape := ⟨2, ![10, 1024]⟩
abbrev S1024 : Shape := ⟨1, ![1024]⟩
abbrev S1024x1 : Shape := ⟨2, ![1024, 1]⟩
abbrev S1 : Shape := ⟨1, ![1]⟩
abbrev S10 : Shape := ⟨1, ![10]⟩

abbrev nBuf : Space → Nat
  | .hbm => 50
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S8192, .i32⟩
  | .hbm, ⟨2, _⟩ => ⟨S10x4096, .f32⟩
  | .hbm, ⟨3, _⟩ => ⟨S100000x10, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S100000x10, .f32⟩
  | .hbm, ⟨8, _⟩ => ⟨S100000x10, .f32⟩
  | .hbm, ⟨9, _⟩ => ⟨S_, .f32⟩
  | .hbm, ⟨10, _⟩ => ⟨S100000x10, .f32⟩
  | .hbm, ⟨11, _⟩ => ⟨S100000x10, .f32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S8192x1, .i32⟩
  | .hbm, ⟨20, _⟩ => ⟨S8192x10, .f32⟩
  | .hbm, ⟨21, _⟩ => ⟨S4096x10, .f32⟩
  | .hbm, ⟨22, _⟩ => ⟨S10x8192, .f32⟩
  | .hbm, ⟨23, _⟩ => ⟨S1x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S10, .f32⟩
  | .hbm, ⟨29, _⟩ => ⟨S8192x10, .f32⟩
  | .hbm, ⟨30, _⟩ => ⟨S_, .f32⟩
  | .hbm, ⟨31, _⟩ => ⟨S_, .f32⟩
  | .hbm, ⟨32, _⟩ => ⟨S4096x10, .f32⟩
  | .hbm, ⟨33, _⟩ => ⟨S_, .f32⟩
  | .hbm, ⟨34, _⟩ => ⟨S_, .f32⟩
  | .hbm, ⟨35, _⟩ => ⟨S10, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x10, .f32⟩
  | .local _ .vmem, ⟨3, _⟩ => ⟨S1024x10, .f32⟩
  | .local _ .vmem, ⟨4, _⟩ => ⟨S10x1024, .f32⟩
  | .local _ .vmem, ⟨5, _⟩ => ⟨S10x1024, .f32⟩
  | .local _ .vmem, ⟨6, _⟩ => ⟨S1x1, .f32⟩
  | .local _ .vmem, ⟨7, _⟩ => ⟨S1x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_cst_7 : Ref sig .tc := ⟨.hbm, 39, rfl⟩
abbrev main_v21 : Ref sig .tc := ⟨.hbm, 40, rfl⟩
abbrev main_cst_8 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_9 : Ref sig .tc := ⟨.hbm, 45, rfl⟩
abbrev main_v25 : Ref sig .tc := ⟨.hbm, 46, rfl⟩
abbrev main_cst_10 : Ref sig .tc := ⟨.hbm, 47, rfl⟩
abbrev main_v26 : Ref sig .tc := ⟨.hbm, 48, rfl⟩
abbrev main_v27 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg0 : BitVec 32 := BitVec.ofNat 32 (i 0).val
  let c3_i32 : BitVec 32 := 3#32
  let v3 : BitVec 1 := Scalar.cmpi .eq arg0 c3_i32
  let arg1 : BitVec 32 := BitVec.ofNat 32 (i 1).val
  let c7_i32 : BitVec 32 := 7#32
  let v4 : BitVec 1 := Scalar.cmpi .eq arg1 c7_i32
  let v5 : BitVec 1 := Scalar.andi v3 v4
  let v25 : BitVec 32 := Scalar.extui v5
  let c0_i32_13 : BitVec 32 := 0#32
  let v26 : BitVec 1 := Scalar.cmpi .ne v25 c0_i32_13
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S10x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  bcast_S_S100000x10 : S_.BroadcastsInDim S100000x10 (![] : Fin 0 → Fin S100000x10.rank)
  bcast_S_S8192 : S_.BroadcastsInDim S8192 (![] : Fin 0 → Fin S8192.rank)
  bcast_S8192_S8192x1_0 : S8192.BroadcastsInDim S8192x1 (![0] : Fin 1 → Fin S8192x1.rank)
  transposes_S10x4096_S4096x10_1_0 : S10x4096.Transposes [1, 0] S4096x10
  transposes_S8192x10_S10x8192_1_0 : S8192x10.Transposes [1, 0] S10x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  inb_S10x1024_S10x1024_0_0 : ∀ a, (![0, 0] : Fin 2 → Nat) a + S10x1024.size a ≤ S10x1024.size a
  h_S10x1024 : 0 < S10x1024.numel
  shapeCasts_S10x1024_S10x1024 : S10x1024.ShapeCasts S10x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  reducesTo_S8192x10_S10_d0 : S8192x10.ReducesTo [0] S10
  h_S_ : 0 < S_.numel
  reducesTo_S8192x10_S_d0_1 : S8192x10.ReducesTo [0, 1] S_
  reducesTo_S4096x10_S_d0_1 : S4096x10.ReducesTo [0, 1] S_
  reducesTo_S10_S_d0 : S10.ReducesTo [0] S_
  gather_S100000x10_S8192x1_S8192x10_1_0_n_n_0_1_110_wf : GatherDims.WF S100000x10 S8192x1 S8192x10 [1] [0] [] [0] [] 1 ![1, 10]
  dot_S1024x10_S10x1024_S1024x1024_1_0_0_1_n_n_wf : DotDims.WF S1024x10 S10x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x8192.size a
  hwx0_0 : ∀ i : grid0.Coords, EltTy.bits .f32 = 32 ∨ (Rect.block (s := S4096x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x10.size a ≤ S4096x10.size a
  hwx0_1 : ∀ i : grid0.Coords, EltTy.bits .f32 = 32 ∨ (Rect.block (s := S4096x10) S1024x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10x1024.size a ≤ S10x8192.size a
  hwx0_2 : ∀ i : grid0.Coords, EltTy.bits .f32 = 32 ∨ (Rect.block (s := S10x8192) S10x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S100000x10_S8192x1_S8192x10_1_0_n_n_0_1_110 : GatherDims S100000x10 S8192x1 S8192x10 where
  offsetDims := [1]
  collapsedSliceDims := [0]
  operandBatchingDims := []
  startIndicesBatchingDims := []
  startIndexMap := [0]
  indexVectorDim := 1
  sliceSizes := ![1, 10]
  wf := gather_S100000x10_S8192x1_S8192x10_1_0_n_n_0_1_110_wf
def dot_S1024x10_S10x1024_S1024x1024_1_0_0_1_n_n : DotDims S1024x10 S10x1024 S1024x1024 where
  lhsContracting := [1]
  rhsContracting := [0]
  lhsNonContracting := [0]
  rhsNonContracting := [1]
  lhsBatch := []
  rhsBatch := []
  wf := dot_S1024x10_S10x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S10x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x8192 : Shape := ⟨2, ![4096, 8192]⟩
abbrev S8192 : Shape := ⟨1, ![8192]⟩
abbrev S10x4096 : Shape := ⟨2, ![10, 4096]⟩
abbrev S100000x10 : Shape := ⟨2, ![100000, 10]⟩
abbrev S_ : Shape := ⟨0, ![]⟩
abbrev S8192x1 : Shape := ⟨2, ![8192, 1]⟩
abbrev S8192x10 : Shape := ⟨2, ![8192, 10]⟩
abbrev S4096x10 : Shape := ⟨2, ![4096, 10]⟩
abbrev S10x8192 : Shape := ⟨2, ![10, 8192]⟩
abbrev S8192x8192 : Shape := ⟨2, ![8192, 8192]⟩
abbrev S10x10 : Shape := ⟨2, ![10, 10]⟩

abbrev nBuf : Space → Nat
  | .hbm => 64
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192, .i32⟩
  | .hbm, ⟨2, _⟩ => ⟨S10x4096, .f32⟩
  | .hbm, ⟨3, _⟩ => ⟨S100000x10, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S100000x10, .f32⟩
  | .hbm, ⟨8, _⟩ => ⟨S100000x10, .f32⟩
  | .hbm, ⟨9, _⟩ => ⟨S_, .f32⟩
  | .hbm, ⟨10, _⟩ => ⟨S100000x10, .f32⟩
  | .hbm, ⟨11, _⟩ => ⟨S100000x10, .f32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S8192x1, .i32⟩
  | .hbm, ⟨20, _⟩ => ⟨S8192x10, .f32⟩
  | .hbm, ⟨21, _⟩ => ⟨S4096x10, .f32⟩
  | .hbm, ⟨22, _⟩ => ⟨S10x8192, .f32⟩
  | .hbm, ⟨23, _⟩ => ⟨S4096x8192, .f32⟩
  | .hbm, ⟨24, _⟩ => ⟨S4096x8192, .f32⟩
  | .hbm, ⟨25, _⟩ => ⟨S4096x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192x8192, .f32⟩
  | .hbm, ⟨32, _⟩ => ⟨S8192x10, .f32⟩
  | .hbm, ⟨33, _⟩ => ⟨S_, .f32⟩
  | .hbm, ⟨34, _⟩ => ⟨S_, .f32⟩
  | .hbm, ⟨35, _⟩ => ⟨S10x8192, .f32⟩
  | .hbm, ⟨36, _⟩ => ⟨S10x8192, .f32⟩
  | .hbm, ⟨37, _⟩ => ⟨S10x10, .f32⟩
  | .hbm, ⟨38, _⟩ => ⟨S10x10, .i32⟩
  | .hbm, ⟨39, _⟩ => ⟨S10x10, .i32⟩
  | .hbm, ⟨40, _⟩ => ⟨S_, .i32⟩
  | .hbm, ⟨41, _⟩ => ⟨S10x10, .i32⟩
  | .hbm, ⟨42, _⟩ => ⟨S10x10, .i32⟩
  | .hbm, ⟨43, _⟩ => ⟨S10x10, .i1⟩
  | .hbm, ⟨44, _⟩ => ⟨S_, .f32⟩
  | .hbm, ⟨45, _⟩ => ⟨S10x10, .f32⟩
  | .hbm, ⟨46, _⟩ => ⟨S10x10, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S4096x10, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call1_v0 : Ref sig .tc := ⟨.hbm, 38, rfl⟩
abbrev main_call1_v1 : Ref sig .tc := ⟨.hbm, 39, rfl⟩
abbrev main_call1_c : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_cst : Ref sig .tc := ⟨.hbm, 44, rfl⟩
abbrev main_call1_v5 : Ref sig .tc := ⟨.hbm, 45, rfl⟩
abbrev main_call1_v6 : Ref sig .tc := ⟨.hbm, 46, rfl⟩
abbrev main_call1_cst_0 : Ref sig .tc := ⟨.hbm, 47, rfl⟩
abbrev main_v21 : Ref sig .tc := ⟨.hbm, 48, rfl⟩
abbrev main_v22 : Ref sig .tc := ⟨.hbm, 49, rfl⟩
abbrev main_cst_6 : Ref sig .tc := ⟨.hbm, 50, rfl⟩
abbrev main_v23 : Ref sig .tc := ⟨.hbm, 51, rfl⟩
abbrev main_cst_7 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_8 : Ref sig .tc := ⟨.hbm, 56, rfl⟩
abbrev main_v27 : Ref sig .tc := ⟨.hbm, 57, rfl⟩
abbrev main_v28 : Ref sig .tc := ⟨.hbm, 58, rfl⟩
abbrev main_cst_9 : Ref sig .tc := ⟨.hbm, 59, rfl⟩
abbrev main_v29 : Ref sig .tc := ⟨.hbm, 60, rfl⟩
abbrev main_cst_10 : Ref sig .tc := ⟨.hbm, 61, rfl⟩
abbrev main_v30 : Ref sig .tc := ⟨.hbm, 62, rfl⟩
abbrev main_v31 : Ref sig .tc := ⟨.hbm, 63, rfl⟩

abbrev nD : Nat := 1
abbrev τ : Topo := Topo.v7x

variable {F : FTy → Type} [FloatOps F]

class Facts₀ : Prop where
  bcast_S_S100000x10 : S_.BroadcastsInDim S100000x10 (![] : Fin 0 → Fin S100000x10.rank)
  bcast_S_S8192 : S_.BroadcastsInDim S8192 (![] : Fin 0 → Fin S8192.rank)
  bcast_S8192_S8192x1_0 : S8192.BroadcastsInDim S8192x1 (![0] : Fin 1 → Fin S8192x1.rank)
  transposes_S10x4096_S4096x10_1_0 : S10x4096.Transposes [1, 0] S4096x10
  transposes_S8192x10_S10x8192_1_0 : S8192x10.Transposes [1, 0] S10x8192
  reducesTo_S4096x8192_S_d0_1 : S4096x8192.ReducesTo [0, 1] S_
  h_S_ : 0 < S_.numel
  bcast_S_S8192x8192 : S_.BroadcastsInDim S8192x8192 (![] : Fin 0 → Fin S8192x8192.rank)
  reducesTo_S8192x10_S_d0_1 : S8192x10.ReducesTo [0, 1] S_
  bcast_S_S10x10 : S_.BroadcastsInDim S10x10 (![] : Fin 0 → Fin S10x10.rank)
  reducesTo_S10x10_S_d0_1 : S10x10.ReducesTo [0, 1] S_
  reducesTo_S4096x10_S_d0_1 : S4096x10.ReducesTo [0, 1] S_
  gather_S100000x10_S8192x1_S8192x10_1_0_n_n_0_1_110_wf : GatherDims.WF S100000x10 S8192x1 S8192x10 [1] [0] [] [0] [] 1 ![1, 10]
  dot_S4096x10_S10x8192_S4096x8192_1_0_0_1_n_n_wf : DotDims.WF S4096x10 S10x8192 S4096x8192 [1] [0] [0] [1] [] []
  dot_S10x8192_S8192x8192_S10x8192_1_0_0_1_n_n_wf : DotDims.WF S10x8192 S8192x8192 S10x8192 [1] [0] [0] [1] [] []
  dot_S10x8192_S8192x10_S10x10_1_0_0_1_n_n_wf : DotDims.WF S10x8192 S8192x10 S10x10 [1] [0] [0] [1] [] []

variable [Facts₀]

def gather_S100000x10_S8192x1_S8192x10_1_0_n_n_0_1_110 : GatherDims S100000x10 S8192x1 S8192x10 where
  offsetDims := [1]
  collapsedSliceDims := [0]
  operandBatchingDims := []
  startIndicesBatchingDims := []
  startIndexMap := [0]
  indexVectorDim := 1
  sliceSizes := ![1, 10]
  wf := gather_S100000x10_S8192x1_S8192x10_1_0_n_n_0_1_110_wf
def dot_S4096x10_S10x8192_S4096x8192_1_0_0_1_n_n : DotDims S4096x10 S10x8192 S4096x8192 where
  lhsContracting := [1]
  rhsContracting := [0]
  lhsNonContracting := [0]
  rhsNonContracting := [1]
  lhsBatch := []
  rhsBatch := []
  wf := dot_S4096x10_S10x8192_S4096x8192_1_0_0_1_n_n_wf
def dot_S10x8192_S8192x8192_S10x8192_1_0_0_1_n_n : DotDims S10x8192 S8192x8192 S10x8192 where
  lhsContracting := [1]
  rhsContracting := [0]
  lhsNonContracting := [0]
  rhsNonContracting := [1]
  lhsBatch := []
  rhsBatch := []
  wf := dot_S10x8192_S8192x8192_S10x8192_1_0_0_1_n_n_wf
def dot_S10x8192_S8192x10_S10x10_1_0_0_1_n_n : DotDims S10x8192 S8192x10 S10x10 where
  lhsContracting := [1]
  rhsContracting := [0]
  lhsNonContracting := [0]
  rhsNonContracting := [1]
  lhsBatch := []
  rhsBatch := []
  wf := dot_S10x8192_S8192x10_S10x10_1_0_0_1_n_n_wf

class Facts : Prop extends Facts₀ where

variable [Facts]
-- ==== Proof.KTerm.lean ====
/-
  What the kernel's program computes around its pallas_call, as terms of the arguments, cut as the reference's is:
  the table clipped to [0, 1], the ids with a negative id counted from the end, H (the clipped table's rows at the
  ids), W (the weight matrix transposed), Hᵀ — and, after the call, the loss as a function of the call's 1 × 1
  result, W and H: the column sums of H squared and summed where the reference takes a trace, the same two sums of
  squares, the same three terms scaled and added.
-/
import proofs.«139351_j36524401885311_1_alg».proof.Proof.Gen.KernelIdeal

noncomputable section

namespace Cert.KernelIdeal.KTerm

open Cert.KernelIdeal Cert.KernelIdeal.Gen Idealize.ShloMosaic Idealize.ShloMosaic.TcCoe

variable {F : FTy → Type} [FloatOps F]

/-- The table clipped to [0, 1]: the larger of 0 and the entry, then the smaller of 1 and that. -/
def hw (A3 : FVec F S100000x10 .f32) : FVec F S100000x10 .f32 :=
  minimumf (broadcastInDim S100000x10 ![] bcast_S_S100000x10 (constant S_ .f32 0x3F800000#32))
    (maximumf (broadcastInDim S100000x10 ![] bcast_S_S100000x10 (constant S_ .f32 0x00000000#32)) A3)

/-- The ids as gather indices: a negative id has the table's length added; one column. -/
def ids (A1 : IVec S8192 32) : IVec S8192x1 32 :=
  broadcastInDim S8192x1 ![0] bcast_S8192_S8192x1_0
    (select (cmpi .slt A1 (broadcastInDim S8192 ![] bcast_S_S8192 (constantI S_ 32 0#32)))
      (addi A1 (broadcastInDim S8192 ![] bcast_S_S8192 (constantI S_ 32 100000#32))) A1)

/-- H: row r is the clipped table's row at id r. -/
def hemb (A1 : IVec S8192 32) (A3 : FVec F S100000x10 .f32) : FVec F S8192x10 .f32 :=
  Host.gather gather_S100000x10_S8192x1_S8192x10_1_0_n_n_0_1_110 (hw A3) (ids A1)

/-- W: the weight matrix transposed. -/
def wemd (A2 : FVec F S10x4096 .f32) : FVec F S4096x10 .f32 :=
  transpose S4096x10 [1, 0] A2 transposes_S10x4096_S4096x10_1_0

/-- Hᵀ. -/
def ht (H : FVec F S8192x10 .f32) : FVec F S10x8192 .f32 :=
  transpose S10x8192 [1, 0] H transposes_S8192x10_S10x8192_1_0

/-- The scalar zero every sum starts from. -/
def zero : FVec F S_ .f32 := constant S_ .f32 0x00000000#32

/-- The column sums of H. -/
def colsumT (H : FVec F S8192x10 .f32) : FVec F S10 .f32 :=
  Host.reduceAdd H zero reducesTo_S8192x10_S10_d0 h_S_

/-- The squared column sums, summed. -/
def colsqT (H : FVec F S8192x10 .f32) : FVec F S_ .f32 :=
  Host.reduceAdd (mulf (colsumT H) (colsumT H)) zero reducesTo_S10_S_d0 h_S_

/-- ‖H‖². -/
def sumsqHT (H : FVec F S8192x10 .f32) : FVec F S_ .f32 :=
  Host.reduceAdd (mulf H H) zero reducesTo_S8192x10_S_d0_1 h_S_

/-- ‖W‖². -/
def sumsqWT (W : FVec F S4096x10 .f32) : FVec F S_ .f32 :=
  Host.reduceAdd (mulf W W) zero reducesTo_S4096x10_S_d0_1 h_S_

/-- The three terms scaled and added: R / n + ½·((T − Q) / n) + (0.01·(Q + Wq)) / n. -/
def combine (R T Q Wq : FVec F S_ .f32) : FVec F S_ .f32 :=
  addf
    (addf (Host.divf R (constant S_ .f32 0x46000000#32))
      (mulf (constant S_ .f32 0x3F000000#32) (Host.divf (subf T Q) (constant S_ .f32 0x46000000#32))))
    (Host.divf (mulf (constant S_ .f32 0x3C23D70A#32) (addf Q Wq)) (constant S_ .f32 0x46000000#32))

/-- The loss as the kernel's program spells it, of the call's result (its one entry read as a scalar), W and H. -/
def tail (out : FVec F S1x1 .f32) (W : FVec F S4096x10 .f32) (H : FVec F S8192x10 .f32) : FVec F S_ .f32 :=
  combine (shapeCast S_ out shapeCasts_S1x1_S_) (colsqT H) (sumsqHT H) (sumsqWT W)

end Cert.KernelIdeal.KTerm

end
-- ==== Proof.Spec.lean ====
/-
  The loss both programs compute, as one function of the data matrix X (4096 × 8192), the feature embedding
  W (4096 × 10, the weight matrix transposed) and the sample embedding H (8192 × 10, rows of the clipped
  table picked by the ids), over the extended reals:

      loss = ‖X − W·Hᵀ‖² / n  +  ½ · (Σ_c (Σ_r H r c)² − ‖H‖²) / n  +  0.01 · (‖H‖² + ‖W‖²) / n,   n = 8192.

  Two facts about sums carry the comparison of the programs.  The squared residuals summed over the whole
  4096 × 8192 matrix are the same numbers summed tile by tile, 1024 × 1024 at a time over a 4 × 8 grid of tiles
  walked row-major: a sum over an additive commutative monoid may be regrouped freely.  And the trace of
  Hᵀ·𝟙·H, with 𝟙 the all-ones matrix, is the sum of the squared column sums of H: entry (c, c) of the product
  is Σ_s (Σ_r H r c)·H s c, and a real factor moves out of a sum of reals — this is where it matters that the
  entries of H are real numbers, which they are, being entries of a table clipped to [0, 1].
-/
import Idealize.ShloMosaic.Lib.ValueIdx
import Idealize.ShloMosaic.PureOps.Ideal.Laws

noncomputable section

open scoped BigOperators

namespace Recon

open Idealize.ShloMosaic Idealize.ShloMosaic.ValueIdx

abbrev ArrX := (⟨2, ![4096, 8192]⟩ : Shape).Idx → EReal
abbrev ArrW := (⟨2, ![4096, 10]⟩ : Shape).Idx → EReal
abbrev ArrH := (⟨2, ![8192, 10]⟩ : Shape).Idx → EReal

/-- Entry (p, q) of W·Hᵀ. -/
def pred (W : ArrW) (H : ArrH) (p : Fin 4096) (q : Fin 8192) : EReal := ∑ k : Fin 10, W (ix2 p k) * H (ix2 q k)

/-- The squared residual at (p, q). -/
def sqres (X : ArrX) (W : ArrW) (H : ArrH) (p : Fin 4096) (q : Fin 8192) : EReal :=
  (X (ix2 p q) - pred W H p q) * (X (ix2 p q) - pred W H p q)

/-- ‖X − W·Hᵀ‖², summed row by row. -/
def recon (X : ArrX) (W : ArrW) (H : ArrH) : EReal := ∑ p : Fin 4096, ∑ q : Fin 8192, sqres X W H p q

/-- The sum of column c of H. -/
def colsum (H : ArrH) (c : Fin 10) : EReal := ∑ r : Fin 8192, H (ix2 r c)

/-- The sum of the squared column sums of H. -/
def colsq (H : ArrH) : EReal := ∑ c : Fin 10, colsum H c * colsum H c

/-- ‖H‖². -/
def sumsqH (H : ArrH) : EReal := ∑ r : Fin 8192, ∑ c : Fin 10, H (ix2 r c) * H (ix2 r c)

/-- ‖W‖². -/
def sumsqW (W : ArrW) : EReal := ∑ p : Fin 4096, ∑ k : Fin 10, W (ix2 p k) * W (ix2 p k)

/-- The three terms put together; the words are the programs' own: 8192, one half, and the float nearest 0.01. -/
def loss (R T Q Wq : EReal) : EReal :=
  (Ideal.div R (Ideal.ofBits .f32 0x46000000#32)
      + Ideal.ofBits .f32 0x3F000000#32 * Ideal.div (T - Q) (Ideal.ofBits .f32 0x46000000#32))
    + Ideal.div (Ideal.ofBits .f32 0x3C23D70A#32 * (Q + Wq)) (Ideal.ofBits .f32 0x46000000#32)

/-- The loss of the data. -/
def total (X : ArrX) (W : ArrW) (H : ArrH) : EReal := loss (recon X W H) (colsq H) (sumsqH H) (sumsqW W)

/-! ## Tile by tile -/

/-- Row p of tile t (tiles numbered row-major over the 4 × 8 grid) is row 1024·(t / 8) + p of the matrix. -/
def rowOf (t : ℕ) (p : Fin 1024) : Fin 4096 := ⟨1024 * (t / 8 % 4) + p.val, by have := p.isLt; omega⟩

/-- Column q of tile t is column 1024·(t mod 8) + q of the matrix. -/
def colOf (t : ℕ) (q : Fin 1024) : Fin 8192 := ⟨1024 * (t % 8) + q.val, by have := q.isLt; omega⟩

/-- The squared residuals of tile t, summed row by row. -/
def tile (X : ArrX) (W : ArrW) (H : ArrH) (t : ℕ) : EReal :=
  ∑ p : Fin 1024, ∑ q : Fin 1024, sqres X W H (rowOf t p) (colOf t q)

end Recon

end
-- ==== Proof.KBlocks.lean ====
/-
  What the kernel's windows show it.  At grid point t = 8·a + b the tile of X is rows 1024·a + p and columns
  1024·b + q of X; the block of W is the same rows, all ten columns; the block of Hᵀ is all ten rows and the same
  columns.  And the arrays the call finds are the arguments carried through the program's first lines: X as launched,
  W the weight matrix transposed, Hᵀ the transposed rows of the clipped table at the ids.
-/
import proofs.«139351_j36524401885311_1_alg».proof.Proof.Gen.KernelIdeal.Frame
import proofs.«139351_j36524401885311_1_alg».proof.Proof.KTerm
import proofs.«139351_j36524401885311_1_alg».proof.Proof.Spec
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.KBlocks

open Cert.KernelIdeal Cert.KernelIdeal.Gen

variable {F : FTy → Type} [FloatOps F]
variable (m : (ℓ : Loc nD τ sig) → Buf (Elt F) ℓ)

/-- The tile of X at grid point t, -/
abbrev xblk (c : Dev nD) (t : Fin cfg0.N) : Vec F S1024x1024 .f32 := iblk m c 0 t
/-- the block of W, -/
abbrev wblk (c : Dev nD) (t : Fin cfg0.N) : Vec F S1024x10 .f32 := iblk m c 1 t
/-- the block of Hᵀ. -/
abbrev gblk (c : Dev nD) (t : Fin cfg0.N) : Vec F S10x1024 .f32 := iblk m c 2 t

/-- The arrays as the call finds them. -/
abbrev xarr (c : Dev nD) : Vec F S4096x8192 .f32 := V m c main_arg0
abbrev warr (c : Dev nD) : Vec F S4096x10 .f32 := V m c main_v8
abbrev garr (c : Dev nD) : Vec F S10x8192 .f32 := V m c main_v9
abbrev harr (c : Dev nD) : Vec F S8192x10 .f32 := V m c main_v7

/-- The block indices of the three input windows at grid point t: (t / 8, t mod 8), (t / 8, 0), (0, t mod 8). -/
theorem idx0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem idx1 : ∀ t : Fin cfg0.N, win0_1.index t 0 = t.val / 8 ∧ win0_1.index t 1 = 0 :=
  (by decide +kernel : ∀ t : Fin grid0.N, win0_1.index t 0 = t.val / 8 ∧ win0_1.index t 1 = 0)
theorem idx2 : ∀ t : Fin cfg0.N, win0_2.index t 0 = 0 ∧ win0_2.index t 1 = t.val % 8 :=
  (by decide +kernel : ∀ t : Fin grid0.N, win0_2.index t 0 = 0 ∧ win0_2.index t 1 = t.val % 8)

theorem xblk_apply (c : Dev nD) (t : Fin cfg0.N) (p q : Fin 1024) :
    xblk m c t (ix2 p q) = xarr m c (ix2 (Recon.rowOf t.val p) (Recon.colOf t.val q)) := by
  have hN : t.val < 32 := lt_of_lt_of_eq t.isLt (show cfg0.N = 32 from N_0)
  show iblk m c 0 t (ix2 p q) = V m c main_arg0 _
  unfold iblk
  rw [View.read_apply]
  show V m c main_arg0 _ = V m c main_arg0 _
  congr 1
  funext a
  apply Fin.ext
  match a with
  | ⟨0, _⟩ =>
    show win0_0.index t 0 * 1024 + 1 * p.val = 1024 * (t.val / 8 % 4) + p.val
    rw [(idx0 t).1]; omega
  | ⟨1, _⟩ =>
    show win0_0.index t 1 * 1024 + 1 * q.val = 1024 * (t.val % 8) + q.val
    rw [(idx0 t).2]; omega

theorem wblk_apply (c : Dev nD) (t : Fin cfg0.N) (p : Fin 1024) (k : Fin 10) :
    wblk m c t (ix2 p k) = warr m c (ix2 (Recon.rowOf t.val p) k) := by
  have hN : t.val < 32 := lt_of_lt_of_eq t.isLt (show cfg0.N = 32 from N_0)
  show iblk m c 1 t (ix2 p k) = V m c main_v8 _
  unfold iblk
  rw [View.read_apply]
  show V m c main_v8 _ = V m c main_v8 _
  congr 1
  funext a
  apply Fin.ext
  match a with
  | ⟨0, _⟩ =>
    show win0_1.index t 0 * 1024 + 1 * p.val = 1024 * (t.val / 8 % 4) + p.val
    rw [(idx1 t).1]; omega
  | ⟨1, _⟩ =>
    show win0_1.index t 1 * 10 + 1 * k.val = k.val
    rw [(idx1 t).2]; omega

theorem gblk_apply (c : Dev nD) (t : Fin cfg0.N) (k : Fin 10) (q : Fin 1024) :
    gblk m c t (ix2 k q) = garr m c (ix2 k (Recon.colOf t.val q)) := by
  have hN : t.val < 32 := lt_of_lt_of_eq t.isLt (show cfg0.N = 32 from N_0)
  show iblk m c 2 t (ix2 k q) = V m c main_v9 _
  unfold iblk
  rw [View.read_apply]
  show V m c main_v9 _ = V m c main_v9 _
  congr 1
  funext a
  apply Fin.ext
  match a with
  | ⟨0, _⟩ =>
    show win0_2.index t 0 * 10 + 1 * k.val = k.val
    rw [(idx2 t).1]; omega
  | ⟨1, _⟩ =>
    show win0_2.index t 1 * 1024 + 1 * q.val = 1024 * (t.val % 8) + q.val
    rw [(idx2 t).2]; omega

/-- X is as launched. -/
theorem xarr_eq (c : Dev nD) : xarr m c = m ((c : Thread nD τ).loc main_arg0) := V_main_arg0 m c

attribute [local irreducible] Host.gather in
set_option maxHeartbeats 800000 in
/-- H is the clipped table's rows at the ids. -/
theorem harr_eq (c : Dev nD) :
    harr m c = KTerm.hemb (m ((c : Thread nD τ).loc main_arg1)) (m ((c : Thread nD τ).loc main_arg3)) := by
  show V m c main_v7 = _
  dsimp only [Gen.V, Gen.V0]
  simp only [Gen.hostOps0, Gen.hostOps0_1, Gen.hostOps0_2, List.flatten_cons, List.flatten_nil, List.append_nil,
    List.cons_append, List.nil_append]
  after_results
  unfold KTerm.hemb KTerm.hw KTerm.ids
  rfl

/-- W is the weight matrix transposed. -/
theorem warr_eq (c : Dev nD) : warr m c = KTerm.wemd (m ((c : Thread nD τ).loc main_arg2)) := by
  show V m c main_v8 = _
  dsimp only [Gen.V, Gen.V0]
  simp only [Gen.hostOps0, Gen.hostOps0_1, Gen.hostOps0_2, List.flatten_cons, List.flatten_nil, List.append_nil,
    List.cons_append, List.nil_append]
  after_results
  rfl

attribute [local irreducible] Host.gather in
set_option maxHeartbeats 800000 in
/-- Hᵀ is H transposed. -/
theorem garr_eq (c : Dev nD) : garr m c = KTerm.ht (harr m c) := by
  rw [harr_eq]
  show V m c main_v9 = _
  dsimp only [Gen.V, Gen.V0]
  simp only [Gen.hostOps0, Gen.hostOps0_1, Gen.hostOps0_2, List.flatten_cons, List.flatten_nil, List.append_nil,
    List.cons_append, List.nil_append]
  after_results
  unfold KTerm.ht KTerm.hemb KTerm.hw KTerm.ids
  rfl

end Cert.KernelIdeal.KBlocks

end
-- ==== Proof.KPieces.lean ====
/-
  What one run of the kernel body leaves behind, as values.  The body keeps a one-entry accumulator in scratch memory.
  At every grid point it stores into the accumulator the payload: the accumulator's previous entry plus the sum, over
  the 1024 × 1024 tile of X in front of it, of the squared entries of X − W·Hᵀ.  At the first grid point it first
  stores zero there, and the payload's read of the accumulator sees that zero.  At the last grid point it also copies
  the accumulator, after the payload's store, into the one-entry output.  So in every case the accumulator ends at
  the payload of the tile, of the two factor blocks and of what the accumulator held (zero at the first point), and at
  the last point the output holds the same.
-/
import proofs.«139351_j36524401885311_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.KPieces

open Cert.KernelIdeal Cert.KernelIdeal.Gen

variable {F : FTy → Type} [FloatOps F]

theorem hz : (![0, 0] : Fin 2 → Nat) = fun _ => 0 := funext fun a => by fin_cases a <;> rfl

/-- A middle grid point: the accumulator, holding xs0, ends at the payload over xs0. -/
theorem sout_B (c : Dev nD) (i : grid0.Coords) (arg2 : Memref sig .tc .vmem S1024x1024 .f32) (harg2 : arg2.IsWhole) (arg3 : Memref sig .tc .vmem S1024x10 .f32) (harg3 : arg3.IsWhole) (arg4 : Memref sig .tc .vmem S10x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S1024x1024 .f32) (x1 : Vec F S1024x10 .f32) (x2 : Vec F S10x1024 .f32) (xs0 : Vec F S1x1 .f32) :
    sout0_B_0 c i arg2 harg2 arg3 harg3 arg4 harg4 arg5 harg5 arg6 harg6 hc0 hc1 x0 x1 x2 xs0 = k0_pay2 x1 x2 x0 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread,
    View.ld_unit_zero (S := S1024x1024) hz, View.ld_unit_zero (S := S1024x10) hz, View.ld_unit_zero (S := S10x1024) hz,
    View.ld_unit_zero (S := S1x1) hz]

/-- The first grid point: zero is stored first, and the payload is taken over that zero. -/
theorem sout_A (c : Dev nD) (i : grid0.Coords) (arg2 : Memref sig .tc .vmem S1024x1024 .f32) (harg2 : arg2.IsWhole) (arg3 : Memref sig .tc .vmem S1024x10 .f32) (harg3 : arg3.IsWhole) (arg4 : Memref sig .tc .vmem S10x1024 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S1024x1024 .f32) (x1 : Vec F S1024x10 .f32) (x2 : Vec F S10x1024 .f32) :
    sout0_A_0 c i arg2 harg2 arg3 harg3 arg4 harg4 arg5 harg5 arg6 harg6 hc0 hc1 x0 x1 x2 = k0_pay2 x1 x2 x0 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg6.read_unread,
    View.ld_unit_zero (S := S1024x1024) hz, View.ld_unit_zero (S := S1024x10) hz, View.ld_unit_zero (S := S10x1024) hz,
    View.ld_unit_zero (S := S1x1) hz]

/-- The last grid point: the accumulator ends at the payload over xs0, -/
theorem sout_C (c : Dev nD) (i : grid0.Coords) (arg2 : Memref sig .tc .vmem S1024x1024 .f32) (harg2 : arg2.IsWhole) (arg3 : Memref sig .tc .vmem S1024x10 .f32) (harg3 : arg3.IsWhole) (arg4 : Memref sig .tc .vmem S10x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S1024x1024 .f32) (x1 : Vec F S1024x10 .f32) (x2 : Vec F S10x1024 .f32) (xs0 : Vec F S1x1 .f32) :
    sout0_C_0 c i arg2 harg2 arg3 harg3 arg4 harg4 arg5 harg5 arg6 harg6 hc0 hc1 x0 x1 x2 xs0 = k0_pay2 x1 x2 x0 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.ld_unit_zero (S := S1024x1024) hz, View.ld_unit_zero (S := S1024x10) hz, View.ld_unit_zero (S := S10x1024) hz,
    View.ld_unit_zero (S := S1x1) hz]

/-- and the output, copied from the accumulator after that store, holds the same. -/
theorem out_C (c : Dev nD) (i : grid0.Coords) (arg2 : Memref sig .tc .vmem S1024x1024 .f32) (harg2 : arg2.IsWhole) (arg3 : Memref sig .tc .vmem S1024x10 .f32) (harg3 : arg3.IsWhole) (arg4 : Memref sig .tc .vmem S10x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S1024x1024 .f32) (x1 : Vec F S1024x10 .f32) (x2 : Vec F S10x1024 .f32) (xs0 : Vec F S1x1 .f32) :
    out0_C_3 c i arg2 harg2 arg3 harg3 arg4 harg4 arg5 harg5 arg6 harg6 hc0 hc1 x0 x1 x2 xs0 = k0_pay2 x1 x2 x0 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S1x1) _ hz]
  simp only [View.readAt_eq_ld, harg2.read_unread, harg3.read_unread, harg4.read_unread, harg6.read_unread,
    View.ld_unit_zero (S := S1024x1024) hz, View.ld_unit_zero (S := S1024x10) hz, View.ld_unit_zero (S := S10x1024) hz,
    View.ld_unit_zero (S := S1x1) hz]

end Cert.KernelIdeal.KPieces

end
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.KPayload.lean ====
/-
  The body's payload read at the ideal values.  Its one entry is the accumulator's entry plus the tile's sum: the
  block product of the 1024 × 10 block of W with the 10 × 1024 block of Hᵀ is, entry by entry, a sum of ten products;
  it is subtracted from the tile of X, the difference squared, the squares summed along each row, the row sums turned
  into a column and that column summed.  The zero stored at the first grid point is the number zero.
-/
import proofs.«139351_j36524401885311_1_alg».proof.Proof.Gen.KernelIdeal.Skeleton
import proofs.«139351_j36524401885311_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KPayload

open Cert.KernelIdeal Cert.KernelIdeal.Gen Idealize.ShloMosaic Idealize.ShloMosaic.TcCoe Idealize.ShloMosaic.ValueIdx

/-- A list of a entries cast to a column: entry (i, 0) of the column is entry i of the list. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The row index p with the column coordinate q put back is (p, q). -/
theorem lift_row (h : S1024x1024.Reduces [1] S1024) (p : Fin 1024) (q : Fin 1024) :
    h.lift (ix1 p) q = ix2 p q := by
  funext a; apply Fin.ext
  fin_cases a <;> rfl

/-- The one index of the column's sum with the row coordinate p put back is (p, 0). -/
theorem lift_col (h : S1024x1.Reduces [0] S1) (p : Fin 1024) :
    h.lift (ix1 (0 : Fin 1)) p = ix2 p (0 : Fin 1) := by
  funext a; apply Fin.ext
  fin_cases a <;> rfl

/-- A sum along the rows of a 1024 × 1024 array from the zero word: entry p is the sum of row p. -/
theorem rowsum_apply (src : FVec Ideal S1024x1024 .f32) (hφ : FKind.Formats .f32)
    (hacc : (0x00000000#32 : BitVec 32) = 0x00000000#32) (p : Fin 1024) :
    multiReduction .add [1] S1024 src 0x00000000#32 reduces_S1024x1024_S1024 hφ hacc (ix1 p)
      = ∑ q : Fin 1024, src (ix2 p q) :=
  (Ideal.multiReduction_add_single src 0x00000000#32 reduces_S1024x1024_S1024 hφ hacc (ix1 p)).trans
    (Finset.sum_congr rfl fun q _ => congrArg src (lift_row reduces_S1024x1024_S1024 p q))

/-- A sum down a 1024 × 1 column from the zero word: its one entry is the sum of the column. -/
theorem colsum_apply (src : FVec Ideal S1024x1 .f32) (hφ : FKind.Formats .f32)
    (hacc : (0x00000000#32 : BitVec 32) = 0x00000000#32) :
    multiReduction .add [0] S1 src 0x00000000#32 reduces_S1024x1_S1 hφ hacc (ix1 (0 : Fin 1))
      = ∑ p : Fin 1024, src (ix2 p (0 : Fin 1)) :=
  (Ideal.multiReduction_add_single src 0x00000000#32 reduces_S1024x1_S1 hφ hacc (ix1 (0 : Fin 1))).trans
    (Finset.sum_congr rfl fun p _ => congrArg src (lift_col reduces_S1024x1_S1 p))

/-- The reset value is zero. -/
theorem pay1_apply (j : S1x1.Idx) : k0_pay1 (F := Ideal) j = 0 := by
  unfold k0_pay1
  rw [shapeCast_self]
  exact Ideal.ofBits_zero_f32

/-- The squared residual of the tile at (p, q). -/
def sq (x1 : FVec Ideal S1024x10 .f32) (x2 : FVec Ideal S10x1024 .f32) (x0 : FVec Ideal S1024x1024 .f32)
    (p q : Fin 1024) : EReal :=
  (x0 (ix2 p q) - ∑ k : Fin 10, x1 (ix2 p k) * x2 (ix2 k q)) * (x0 (ix2 p q) - ∑ k : Fin 10, x1 (ix2 p k) * x2 (ix2 k q))

/-- The payload's entry: the accumulator's entry plus the tile's squared residuals, summed row by row. -/
theorem pay2_apply (x1 : FVec Ideal S1024x10 .f32) (x2 : FVec Ideal S10x1024 .f32) (x0 : FVec Ideal S1024x1024 .f32)
    (xs : FVec Ideal S1x1 .f32) :
    k0_pay2 (F := Ideal) x1 x2 x0 xs (ix2 0 0) = xs (ix2 0 0) + ∑ p : Fin 1024, ∑ q : Fin 1024, sq x1 x2 x0 p q := by
  unfold k0_pay2
  dsimp only
  simp only [shapeCast_self]
  rw [addf_apply, shapeCast_a_1a_apply, colsum_apply]
  refine congrArg (xs (ix2 0 0) + ·) ?_
  refine Finset.sum_congr rfl fun p _ => ?_
  rw [shapeCast_a_a1_apply, rowsum_apply]
  refine Finset.sum_congr rfl fun q _ => ?_
  rw [mulf_apply, subf_apply,
    RowOps.matmul_plain_apply dot_S1024x10_S10x1024_S1024x1024_1_0_0_1_n_n rfl]
  rfl

end Cert.KernelIdeal.KPayload

end
-- ==== Proof.Tiles.lean ====
/-
  Regrouping the squared residuals tile by tile.

  The 4096 × 8192 index rectangle is the disjoint union of 32 tiles of 1024 × 1024: tile t = 8·a + b
  (a < 4, b < 8) holds the rows 1024·a + p and the columns 1024·b + q, with p, q < 1024.  A sum over an
  additive commutative monoid may be regrouped along any partition of its index set; no subtraction and
  no finiteness of the summands is used, so the statement holds over the extended reals as it stands.

  The steps: an index below m·n is uniquely n·a + b with a < m and b < n, so a sum over such indices is a
  double sum over (a, b); this splits the rows into 4 blocks of 1024, the columns into 8 blocks of 1024, and
  the tile numbers into a 4 × 8 grid; exchanging the sum over the rows inside a block with the sum over the
  column blocks puts the four sums in the order tile-row, tile-column, row, column.
-/
import proofs.«139351_j36524401885311_1_alg».proof.Proof.Spec
import Mathlib.Algebra.BigOperators.Fin
import Mathlib.Logic.Equiv.Fin.Basic

noncomputable section

open scoped BigOperators

namespace Recon

/-- A sum over the indices below N = m·n is the sum over the m blocks of the sums over the n places in a
block: the index at place b of block a is n·a + b. -/
theorem sum_fin_blocks {M : Type*} [AddCommMonoid M] (m n N : ℕ) (h : m * n = N) (g : Fin N → M) :
    ∑ i : Fin N, g i = ∑ a : Fin m, ∑ b : Fin n, g (Fin.cast h (finProdFinEquiv (a, b))) := by
  subst h
  rw [← (finProdFinEquiv : Fin m × Fin n ≃ Fin (m * n)).sum_comp, Fintype.sum_prod_type]
  rfl

/-- The sum over the whole 4096 × 8192 rectangle is the sum over the 32 tiles of the sums over each
1024 × 1024 tile, in any additive commutative monoid. -/
theorem sum_tiles {M : Type*} [AddCommMonoid M] (f : Fin 4096 → Fin 8192 → M) :
    ∑ p : Fin 4096, ∑ q : Fin 8192, f p q
      = ∑ t ∈ Finset.range 32, ∑ p' : Fin 1024, ∑ q' : Fin 1024, f (rowOf t p') (colOf t q') := by
  -- the tile numbers as a 4 × 8 grid: t = 8·a + b
  rw [Finset.sum_range, sum_fin_blocks 4 8 32 (by norm_num)]
  -- the rows as 4 blocks of 1024
  rw [sum_fin_blocks 4 1024 4096 (by norm_num)]
  refine Finset.sum_congr rfl (fun a _ => ?_)
  -- the columns as 8 blocks of 1024, under the sum over the rows of block a
  have hcols : ∀ p' : Fin 1024,
      ∑ q : Fin 8192, f (Fin.cast (by norm_num) (finProdFinEquiv (a, p'))) q
        = ∑ b : Fin 8, ∑ q' : Fin 1024,
            f (Fin.cast (by norm_num) (finProdFinEquiv (a, p')))
              (Fin.cast (by norm_num) (finProdFinEquiv (b, q'))) :=
    fun p' => sum_fin_blocks 8 1024 8192 (by norm_num) _
  rw [Finset.sum_congr rfl (fun p' _ => hcols p'), Finset.sum_comm]
  refine Finset.sum_congr rfl (fun b _ => Finset.sum_congr rfl (fun p' _ =>
    Finset.sum_congr rfl (fun q' _ => ?_)))
  -- the index arithmetic: row 1024·a + p' and column 1024·b + q' are row p' and column q' of tile 8·a + b
  have ha := a.isLt
  have hb := b.isLt
  congr 1
  · apply Fin.ext
    simp only [rowOf, Fin.coe_cast, finProdFinEquiv_apply_val]
    omega
  · apply Fin.ext
    simp only [colOf, Fin.coe_cast, finProdFinEquiv_apply_val]
    omega

/-- The squared residuals summed tile by tile are the squared residuals summed over the whole matrix. -/
theorem sum_tile (X : ArrX) (W : ArrW) (H : ArrH) :
    ∑ t ∈ Finset.range 32, tile X W H t = recon X W H := by
  unfold tile recon
  exact (sum_tiles (sqres X W H)).symm

end Recon

end
-- ==== Proof.KChain.lean ====
/-
  The accumulator across the grid.  After the body at grid point n the accumulator's entry is the sum of the
  squared residuals of tiles 0, …, n: at point 0 it is zero plus tile 0's sum, and each later point adds its own
  tile's sum to what the point before left.  At the last point, 31, the output's entry is that same number, the sum
  over all 32 tiles, which is the sum of the squared residuals over the whole matrix.
-/
import proofs.«139351_j36524401885311_1_alg».proof.Proof.Gen.KernelIdeal.Frame
import proofs.«139351_j36524401885311_1_alg».proof.Proof.KPieces
import proofs.«139351_j36524401885311_1_alg».proof.Proof.KPayload
import proofs.«139351_j36524401885311_1_alg».proof.Proof.KBlocks
import proofs.«139351_j36524401885311_1_alg».proof.Proof.Tiles
import Idealize.ShloMosaic.Lib.ValueLayout

noncomputable section

open scoped BigOperators

open Idealize.ShloMosaic Idealize.ShloMosaic.TcCoe Idealize.SL.Sem Idealize.ShloMosaic.ValueIdx

namespace Cert.KernelIdeal.KChain

open Cert.KernelIdeal Cert.KernelIdeal.Gen Cert.KernelIdeal.KBlocks

variable (m : (ℓ : Loc nD τ sig) → Buf (Elt Ideal) ℓ)

/-- The sum of the squared residuals of tile t of the arrays the call finds. -/
abbrev tileOf (c : Dev nD) (t : ℕ) : EReal := Recon.tile (xarr m c) (warr m c) (harr m c) t

/-- The payload at grid point t over an accumulator xs: the accumulator's entry plus tile t's sum. -/
theorem pay_tile (c : Dev nD) (t : Fin cfg0.N) (xs : FVec Ideal S1x1 .f32) :
    k0_pay2 (F := Ideal) (wblk m c t) (gblk m c t) (xblk m c t) xs (ix2 0 0) = xs (ix2 0 0) + tileOf m c t.val := by
  rw [KPayload.pay2_apply]
  refine congrArg (xs (ix2 0 0) + ·) ?_
  unfold tileOf Recon.tile
  refine Finset.sum_congr rfl fun p _ => Finset.sum_congr rfl fun q _ => ?_
  unfold KPayload.sq Recon.sqres Recon.pred
  have e : ∀ k : Fin 10, wblk m c t (ix2 p k) * gblk m c t (ix2 k q)
      = warr m c (ix2 (Recon.rowOf t.val p) k) * harr m c (ix2 (Recon.colOf t.val q) k) := fun k => by
    rw [wblk_apply, gblk_apply, garr_eq]
    unfold KTerm.ht
    rw [transpose_ix2_apply]
  rw [xblk_apply]
  simp only [e]

/-- After grid point n the accumulator holds the sum of tiles 0, …, n. -/
theorem scratch_eq (c : Dev nD) : ∀ (n : ℕ) (h : n < cfg0.N),
    (outsAt0 m c n h).2 (ix2 0 0) = ∑ t ∈ Finset.range (n + 1), tileOf m c t
  | 0, h => by
    rw [outsAt0_A m c ⟨0, h⟩ (Nat.zero_mod _) (by show ¬(0 % 32 = 31); decide)]
    dsimp only
    refine (congrFun (KPieces.sout_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) _ _ (xblk m c ⟨0, h⟩) (wblk m c ⟨0, h⟩) (gblk m c ⟨0, h⟩)) (ix2 0 0)).trans ?_
    rw [pay_tile m c ⟨0, h⟩, KPayload.pay1_apply, zero_add, Finset.sum_range_one]
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      refine (congrFun (KPieces.sout_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (xblk m c ⟨n + 1, h⟩) (wblk m c ⟨n + 1, h⟩) (gblk m c ⟨n + 1, h⟩) _) (ix2 0 0)).trans ?_
      rw [pay_tile m c ⟨n + 1, h⟩, Finset.sum_range_succ _ (n + 1)]
      exact congrArg (· + tileOf m c (n + 1)) (scratch_eq c n _)
    · rw [outsAt0_B m c ⟨n + 1, h⟩ h0 h1]
      dsimp only
      refine (congrFun (KPieces.sout_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (xblk m c ⟨n + 1, h⟩) (wblk m c ⟨n + 1, h⟩) (gblk m c ⟨n + 1, h⟩) _) (ix2 0 0)).trans ?_
      rw [pay_tile m c ⟨n + 1, h⟩, Finset.sum_range_succ _ (n + 1)]
      exact congrArg (· + tileOf m c (n + 1)) (scratch_eq c n _)

/-- The last grid point. -/
abbrev tLast : Fin cfg0.N := ⟨31, by rw [show cfg0.N = 32 from N_0]; decide⟩

/-- What the output's staging buffer holds after the last grid point, as a 1 × 1 array. -/
abbrev outLast (c : Dev nD) : Vec Ideal S1x1 .f32 := (outsAt0 m c 31 (tLast).isLt).1

/-- Its entry is the sum of the squared residuals over the whole matrix. -/
theorem outLast_apply (c : Dev nD) :
    outLast m c (ix2 0 0) = Recon.recon (xarr m c) (warr m c) (harr m c) := by
  have h0 : ¬(tLast).val % 32 = 0 := by decide
  have h1 : (tLast).val % 32 = 31 := by decide
  show (outsAt0 m c (tLast).val (tLast).isLt).1 (ix2 0 0) = _
  rw [outsAt0_C m c tLast h0 h1]
  dsimp only
  refine (congrFun (KPieces.out_C (F := Ideal) c (grid0.coords tLast) (ms0_0 tLast) (hs0_0 tLast) (ms0_1 tLast) (hs0_1 tLast) (ms0_2 tLast) (hs0_2 tLast) (ms0_3 tLast) (hs0_3 tLast) scM0_0 (Memref.isWhole_whole _) _ _ (xblk m c tLast) (wblk m c tLast) (gblk m c tLast) _) (ix2 0 0)).trans ?_
  rw [pay_tile m c tLast, ← Recon.sum_tile, Finset.sum_range_succ _ 31]
  exact congrArg (· + tileOf m c 31) (scratch_eq m c 30 _)

end Cert.KernelIdeal.KChain

end
-- ==== Proof.RefTerm.lean ====
/-
  What the reference computes, as one term of its four arguments, cut where the mathematics cuts it: the table
  clipped to [0, 1]; the ids with a negative id counted from the end; H, the rows of the clipped table at those
  ids; W, the weight matrix transposed; and the loss as a function of X, W and H — the squared residuals of
  X − W·Hᵀ summed, the trace of Hᵀ·𝟙·H (the diagonal picked out of the 10 × 10 product by comparing a row
  counter with a column counter), the two sums of squares, and the three terms scaled and added.
-/
import proofs.«139351_j36524401885311_1_alg».proof.Proof.Gen.ReferenceIdeal

noncomputable section

namespace Cert.ReferenceIdeal.RefTerm

open Cert.ReferenceIdeal Cert.ReferenceIdeal.Gen Idealize.ShloMosaic Idealize.ShloMosaic.TcCoe

variable {F : FTy → Type} [FloatOps F]

/-- The table clipped to [0, 1]: the larger of 0 and the entry, then the smaller of 1 and that. -/
def hw (A3 : FVec F S100000x10 .f32) : FVec F S100000x10 .f32 :=
  minimumf (broadcastInDim S100000x10 ![] bcast_S_S100000x10 (constant S_ .f32 0x3F800000#32))
    (maximumf (broadcastInDim S100000x10 ![] bcast_S_S100000x10 (constant S_ .f32 0x00000000#32)) A3)

/-- The ids as gather indices: a negative id has the table's length added; one column. -/
def ids (A1 : IVec S8192 32) : IVec S8192x1 32 :=
  broadcastInDim S8192x1 ![0] bcast_S8192_S8192x1_0
    (select (cmpi .slt A1 (broadcastInDim S8192 ![] bcast_S_S8192 (constantI S_ 32 0#32)))
      (addi A1 (broadcastInDim S8192 ![] bcast_S_S8192 (constantI S_ 32 100000#32))) A1)

/-- H: row r is the clipped table's row at id r. -/
def hemb (A1 : IVec S8192 32) (A3 : FVec F S100000x10 .f32) : FVec F S8192x10 .f32 :=
  Host.gather gather_S100000x10_S8192x1_S8192x10_1_0_n_n_0_1_110 (hw A3) (ids A1)

/-- W: the weight matrix transposed. -/
def wemd (A2 : FVec F S10x4096 .f32) : FVec F S4096x10 .f32 :=
  transpose S4096x10 [1, 0] A2 transposes_S10x4096_S4096x10_1_0

/-- Hᵀ. -/
def ht (H : FVec F S8192x10 .f32) : FVec F S10x8192 .f32 :=
  transpose S10x8192 [1, 0] H transposes_S8192x10_S10x8192_1_0

/-- The scalar zero every sum starts from. -/
def zero : FVec F S_ .f32 := constant S_ .f32 0x00000000#32

/-- The residual matrix X − W·Hᵀ. -/
def resid (A0 : FVec F S4096x8192 .f32) (W : FVec F S4096x10 .f32) (H : FVec F S8192x10 .f32) : FVec F S4096x8192 .f32 :=
  subf A0 (Host.dotGeneral dot_S4096x10_S10x8192_S4096x8192_1_0_0_1_n_n none W (ht H))

/-- The squared residuals, summed over the whole matrix. -/
def reconT (A0 : FVec F S4096x8192 .f32) (W : FVec F S4096x10 .f32) (H : FVec F S8192x10 .f32) : FVec F S_ .f32 :=
  Host.reduceAdd (mulf (resid A0 W H) (resid A0 W H)) zero reducesTo_S4096x8192_S_d0_1 h_S_

/-- ‖H‖². -/
def sumsqHT (H : FVec F S8192x10 .f32) : FVec F S_ .f32 :=
  Host.reduceAdd (mulf H H) zero reducesTo_S8192x10_S_d0_1 h_S_

/-- ‖W‖². -/
def sumsqWT (W : FVec F S4096x10 .f32) : FVec F S_ .f32 :=
  Host.reduceAdd (mulf W W) zero reducesTo_S4096x10_S_d0_1 h_S_

/-- (Hᵀ·𝟙)·H, a 10 × 10 matrix; 𝟙 is the 8192 × 8192 matrix of ones. -/
def prodT (H : FVec F S8192x10 .f32) : FVec F S10x10 .f32 :=
  Host.dotGeneral dot_S10x8192_S8192x10_S10x10_1_0_0_1_n_n none
    (Host.dotGeneral dot_S10x8192_S8192x8192_S10x8192_1_0_0_1_n_n none (ht H)
      (broadcastInDim S8192x8192 ![] bcast_S_S8192x8192 (constant S_ .f32 0x3F800000#32))) H

/-- The trace of a 10 × 10 matrix: the entries where the row counter equals the column counter, the others replaced by
    zero, all summed. -/
def traceT (P : FVec F S10x10 .f32) : FVec F S_ .f32 :=
  Host.reduceAdd
    (select (cmpi .eq (addi (iotaInDim S10x10 32 0) (broadcastInDim S10x10 ![] bcast_S_S10x10 (constantI S_ 32 0#32)))
        (iotaInDim S10x10 32 1)) P
      (broadcastInDim S10x10 ![] bcast_S_S10x10 (constant S_ .f32 0x00000000#32)))
    zero reducesTo_S10x10_S_d0_1 h_S_

/-- The three terms scaled and added: R / n + ½·((T − Q) / n) + (0.01·(Q + Wq)) / n. -/
def combine (R T Q Wq : FVec F S_ .f32) : FVec F S_ .f32 :=
  addf
    (addf (Host.divf R (constant S_ .f32 0x46000000#32))
      (mulf (constant S_ .f32 0x3F000000#32) (Host.divf (subf T Q) (constant S_ .f32 0x46000000#32))))
    (Host.divf (mulf (constant S_ .f32 0x3C23D70A#32) (addf Q Wq)) (constant S_ .f32 0x46000000#32))

/-- The loss as the reference spells it, of X, W and H. -/
def tail (A0 : FVec F S4096x8192 .f32) (W : FVec F S4096x10 .f32) (H : FVec F S8192x10 .f32) : FVec F S_ .f32 :=
  combine (reconT A0 W H) (traceT (prodT H)) (sumsqHT H) (sumsqWT W)

/-- The reference's result of its four arguments. -/
def result (A0 : FVec F S4096x8192 .f32) (A1 : IVec S8192 32) (A2 : FVec F S10x4096 .f32) (A3 : FVec F S100000x10 .f32) :
    FVec F S_ .f32 :=
  tail A0 (wemd A2) (hemb A1 A3)

end Cert.ReferenceIdeal.RefTerm

end
-- ==== Proof.RefValue.lean ====
/-
  The reference's term read over the extended reals, piece by piece.

  H. Every entry of H is an entry of the table clipped to [0, 1]: the smaller of 1 and the larger of 0 and y, which
  lies between 0 and 1 whatever extended real y is, and so is a real number.

  The sums. A sum of every entry of a matrix into a scalar, started from 0, is 0 + the sum over all index pairs, and
  that is the sum over rows of the sums over columns. With entry (p, q) of W·Hᵀ read as ∑ k, W (p, k) · H (q, k)
  (Hᵀ (k, q) = H (q, k)), the three plain sums are the squared residuals, ‖H‖² and ‖W‖² of the specification.

  The law. Entry (a, b) of (Hᵀ·𝟙)·H is ∑ s, (∑ r, H (r, a) · 1) · H (s, b) = ∑ s, colsum a · H (s, b). The mask
  compares the row counter plus 0 with the column counter, so its bit at (a, b) is 1 exactly when a = b, and the
  masked sum is the trace ∑ a, ∑ s, colsum a · H (s, a). Multiplication distributes over a sum in the extended reals
  only away from the infinities; the entries of H being real, the factor colsum a is a real number and moves out of
  the sum over s as it does in ℝ, which gives ∑ a, colsum a · colsum a.

  The three terms scaled and added are, at the one index of a scalar, the specification's loss of the four numbers.
-/
import proofs.«139351_j36524401885311_1_alg».proof.Proof.RefTerm
import proofs.«139351_j36524401885311_1_alg».proof.Proof.Spec
import proofs.«139351_j36524401885311_1_alg».proof.Proof.LibRowOps
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import Idealize.ShloMosaic.Lib.IdealHost

noncomputable section

open scoped BigOperators

namespace Cert.ReferenceIdeal.RefValue

open Cert.ReferenceIdeal Cert.ReferenceIdeal.Gen Cert.ReferenceIdeal.RefTerm Idealize.ShloMosaic Idealize.ShloMosaic.TcCoe
  Idealize.ShloMosaic.ValueIdx

/-- The smaller of 1 and the larger of 0 and y lies between 0 and 1, whatever extended real y is: a real number. -/
theorem clip_real (y : EReal) : ∃ x : ℝ, min (1 : EReal) (max 0 y) = (x : EReal) := by
  have h0 : (0 : EReal) ≤ min 1 (max 0 y) := le_min zero_le_one (le_max_left _ _)
  have h1 : min (1 : EReal) (max 0 y) ≤ 1 := min_le_left _ _
  refine ⟨(min (1 : EReal) (max 0 y)).toReal, (EReal.coe_toReal ?_ ?_).symm⟩
  · exact ne_of_lt (lt_of_le_of_lt h1 (by exact_mod_cast EReal.coe_lt_top 1))
  · exact ne_of_gt (lt_of_lt_of_le (by exact_mod_cast EReal.bot_lt_coe 0) h0)

/-- An entry of the clipped table: the words are 1 and 0. -/
theorem hw_apply (A3 : FVec Ideal S100000x10 .f32) (j : S100000x10.Idx) :
    hw (F := Ideal) A3 j = min 1 (max 0 (A3 j)) := by
  unfold hw
  rw [minimumf_apply, maximumf_apply, broadcastInDim_scalar_apply, broadcastInDim_scalar_apply, constant_apply,
    constant_apply, Ideal.ofBits_one_f32, Ideal.ofBits_zero_f32]

/-- Every entry of H is some entry of the clipped table, hence a real number. -/
theorem hemb_real (A1 : IVec S8192 32) (A3 : FVec Ideal S100000x10 .f32) (i : S8192x10.Idx) :
    ∃ x : ℝ, hemb (F := Ideal) A1 A3 i = (x : EReal) := by
  unfold hemb Host.gather
  rw [hw_apply]
  exact clip_real _

/-- The scalar every sum starts from is 0. -/
theorem zero_apply (j : S_.Idx) : zero (F := Ideal) j = 0 := by
  unfold zero
  rw [constant_apply, Ideal.ofBits_zero_f32]

/-- A sum of every entry of a matrix into a scalar, started from 0: the sum over rows of the sums over columns. -/
theorem reduce_all2 {m n : ℕ} (x : FVec Ideal ⟨2, ![m, n]⟩ .f32)
    (h : (⟨2, ![m, n]⟩ : Shape).ReducesTo [0, 1] S_) (j : S_.Idx) :
    Host.reduceAdd x (zero (F := Ideal)) h h_S_ j = ∑ a : Fin m, ∑ b : Fin n, x (ix2 a b) := by
  rw [hostReduceAdd_apply, Ideal.hostReduceAdd_total h (fun b => b.elim0), zero_apply, zero_add, sum_idx2]

/-- Hᵀ at (k, q) is H at (q, k). -/
theorem ht_apply (H : FVec Ideal S8192x10 .f32) (k : Fin 10) (q : Fin 8192) :
    ht (F := Ideal) H (ix2 k q) = H (ix2 q k) := by
  unfold ht
  exact transpose_ix2_apply H _ k q

/-- ‖H‖² read as the double sum. -/
theorem sumsqHT_eq (H : FVec Ideal S8192x10 .f32) (j : S_.Idx) : sumsqHT (F := Ideal) H j = Recon.sumsqH H := by
  unfold sumsqHT Recon.sumsqH
  rw [reduce_all2]
  rfl

/-- ‖W‖² read as the double sum. -/
theorem sumsqWT_eq (W : FVec Ideal S4096x10 .f32) (j : S_.Idx) : sumsqWT (F := Ideal) W j = Recon.sumsqW W := by
  unfold sumsqWT Recon.sumsqW
  rw [reduce_all2]
  rfl

/-- Entry (p, q) of the residual: X (p, q) less the product's entry, row p of W against row q of H. -/
theorem resid_apply (A0 : FVec Ideal S4096x8192 .f32) (W : FVec Ideal S4096x10 .f32) (H : FVec Ideal S8192x10 .f32)
    (p : Fin 4096) (q : Fin 8192) :
    resid (F := Ideal) A0 W H (ix2 p q) = A0 (ix2 p q) - Recon.pred W H p q := by
  unfold resid Recon.pred
  rw [subf_apply, RowOps.dotGeneral_plain_apply dot_S4096x10_S10x8192_S4096x8192_1_0_0_1_n_n rfl]
  simp only [ht_apply]

/-- The squared residuals summed over the whole matrix, row by row. -/
theorem reconT_eq (A0 : FVec Ideal S4096x8192 .f32) (W : FVec Ideal S4096x10 .f32) (H : FVec Ideal S8192x10 .f32)
    (j : S_.Idx) : reconT (F := Ideal) A0 W H j = Recon.recon A0 W H := by
  unfold reconT Recon.recon Recon.sqres
  rw [reduce_all2]
  simp only [mulf_apply, resid_apply]

/-- The coercion of a finite sum of reals is the sum of the coercions. -/
theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A real factor moves out of a finite sum of reals, read in the extended reals. -/
theorem mul_sum_coe {ι : Type} (s : Finset ι) (c : ℝ) (f : ι → ℝ) :
    ∑ i ∈ s, (c : EReal) * (f i : EReal) = (c : EReal) * ∑ i ∈ s, (f i : EReal) := by
  calc ∑ i ∈ s, (c : EReal) * (f i : EReal) = ∑ i ∈ s, ((c * f i : ℝ) : EReal) := by simp only [EReal.coe_mul]
    _ = ((∑ i ∈ s, c * f i : ℝ) : EReal) := (coe_sum s _).symm
    _ = ((c * ∑ i ∈ s, f i : ℝ) : EReal) := by rw [Finset.mul_sum]
    _ = (c : EReal) * ∑ i ∈ s, (f i : EReal) := by rw [EReal.coe_mul, coe_sum]

/-- Two counters below 10 that are the same word are the same counter. -/
theorem ofNat_inj_fin10 (a b : Fin 10) (h : BitVec.ofNat 32 a.val = BitVec.ofNat 32 b.val) : a = b := by
  have e := congrArg BitVec.toNat h
  rw [BitVec.toNat_ofNat, BitVec.toNat_ofNat] at e
  have ha := a.isLt
  have hb := b.isLt
  apply Fin.ext
  omega

/-- The mask at (a, b): the row counter plus 0 against the column counter; the bit is 1 exactly on the diagonal. -/
theorem mask_apply (a b : Fin 10) :
    cmpi .eq (addi (iotaInDim S10x10 32 0) (broadcastInDim S10x10 ![] bcast_S_S10x10 (constantI S_ 32 0#32)))
      (iotaInDim S10x10 32 1) (ix2 a b) = if a = b then 1#1 else 0#1 := by
  show IntOp.cmpi .eq (IntOp.addi (BitVec.ofNat 32 a.val)
      (broadcastInDim S10x10 ![] bcast_S_S10x10 (constantI S_ 32 0#32) (ix2 a b))) (BitVec.ofNat 32 b.val) = _
  rw [broadcastInDim_scalar_apply]
  show IntOp.cmpi .eq (BitVec.ofNat 32 a.val + 0#32) (BitVec.ofNat 32 b.val) = _
  rw [BitVec.add_zero]
  by_cases hab : a = b
  · rw [if_pos hab, hab]
    exact Idealize.ShloMosaic.StableHlo.Predicate.cmpi_eq_iff.mpr rfl
  · rw [if_neg hab]
    exact eq_zero_of_ne_one fun h1 => hab (ofNat_inj_fin10 a b (Idealize.ShloMosaic.StableHlo.Predicate.cmpi_eq_iff.mp h1))

/-- The trace of a 10 × 10 matrix as the program spells it is the sum of its diagonal. -/
theorem traceT_apply (P : FVec Ideal S10x10 .f32) (j : S_.Idx) : traceT (F := Ideal) P j = ∑ a : Fin 10, P (ix2 a a) := by
  unfold traceT
  rw [reduce_all2]
  refine Finset.sum_congr rfl fun a _ => ?_
  have e : ∀ b : Fin 10,
      select (cmpi .eq (addi (iotaInDim S10x10 32 0) (broadcastInDim S10x10 ![] bcast_S_S10x10 (constantI S_ 32 0#32)))
        (iotaInDim S10x10 32 1)) P
        (broadcastInDim S10x10 ![] bcast_S_S10x10 (constant (F := Ideal) S_ .f32 0x00000000#32)) (ix2 a b)
        = if a = b then P (ix2 a b) else 0 := by
    intro b
    rw [select_apply, mask_apply, broadcastInDim_scalar_apply, constant_apply, Ideal.ofBits_zero_f32]
    by_cases hab : a = b
    · rw [if_pos hab, if_pos hab, select_one]
    · rw [if_neg hab, if_neg hab, select_zero]
  simp only [e]
  rw [Finset.sum_ite_eq]
  simp

/-- Entry (a, b) of (Hᵀ·𝟙)·H: the sum over s of column a's sum times H (s, b), each entry of 𝟙 being 1. -/
theorem prodT_apply (H : FVec Ideal S8192x10 .f32) (a b : Fin 10) :
    prodT (F := Ideal) H (ix2 a b) = ∑ s : Fin 8192, Recon.colsum H a * H (ix2 s b) := by
  unfold prodT Recon.colsum
  rw [RowOps.dotGeneral_plain_apply dot_S10x8192_S8192x10_S10x10_1_0_0_1_n_n rfl]
  refine Finset.sum_congr rfl fun s _ => ?_
  rw [RowOps.dotGeneral_plain_apply dot_S10x8192_S8192x8192_S10x8192_1_0_0_1_n_n rfl]
  congr 1
  refine Finset.sum_congr rfl fun r _ => ?_
  rw [ht_apply, broadcastInDim_scalar_apply, constant_apply, Ideal.ofBits_one_f32, mul_one]

/-- THE LAW: the trace of (Hᵀ·𝟙)·H is the sum of the squared column sums of H, the entries of H being real: the
    diagonal entry (a, a) is ∑ s, (column a's sum) · H (s, a), and a real factor moves out of a sum of reals. -/
theorem trace_law (H : FVec Ideal S8192x10 .f32) (hH : ∀ i, ∃ x : ℝ, H i = (x : EReal)) (j : S_.Idx) :
    traceT (F := Ideal) (prodT (F := Ideal) H) j = Recon.colsq H := by
  rw [traceT_apply]
  unfold Recon.colsq
  refine Finset.sum_congr rfl fun a _ => ?_
  rw [prodT_apply]
  choose h hh using hH
  have hc : Recon.colsum H a = ((∑ r : Fin 8192, h (ix2 r a) : ℝ) : EReal) := by
    unfold Recon.colsum
    rw [coe_sum]
    simp only [hh]
  rw [hc]
  simp only [hh]
  rw [mul_sum_coe, coe_sum]

/-- The three terms scaled and added, read at the one index: the loss of the four scalars. -/
theorem combine_apply (R T Q Wq : FVec Ideal S_ .f32) (j : S_.Idx) :
    combine (F := Ideal) R T Q Wq j = Recon.loss (R j) (T j) (Q j) (Wq j) := rfl

/-- The reference's loss of X, W and H is the loss of the data, the entries of H being real. -/
theorem tail_eq (A0 : FVec Ideal S4096x8192 .f32) (W : FVec Ideal S4096x10 .f32) (H : FVec Ideal S8192x10 .f32)
    (hH : ∀ i, ∃ x : ℝ, H i = (x : EReal)) : tail (F := Ideal) A0 W H = fun _ => Recon.total A0 W H := by
  funext j
  unfold tail Recon.total
  rw [combine_apply, reconT_eq, trace_law H hH, sumsqHT_eq, sumsqWT_eq]

end Cert.ReferenceIdeal.RefValue

end
-- ==== Proof.KValue.lean ====
/-
  The kernel program's last lines read at the ideal values.  They take the call's one number R, the column sums of H
  squared and summed, ‖H‖² and ‖W‖², and scale and add them as the reference does.  The two sums of squares and the
  scaling are, operation for operation, the reference's own terms; what is new is the column sums: column c of H summed
  from zero, then the ten squares summed from zero.
-/
import proofs.«139351_j36524401885311_1_alg».proof.Proof.KTerm
import proofs.«139351_j36524401885311_1_alg».proof.Proof.RefValue
import proofs.«139351_j36524401885311_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace Cert.KernelIdeal.KValue

open Cert.KernelIdeal Cert.KernelIdeal.Gen Idealize.ShloMosaic Idealize.ShloMosaic.TcCoe Idealize.ShloMosaic.ValueIdx

/-- The scalar every sum starts from is 0. -/
theorem zero_apply (j : S_.Idx) : KTerm.zero (F := Ideal) j = 0 := by
  unfold KTerm.zero
  rw [constant_apply, Ideal.ofBits_zero_f32]

/-- ‖H‖², ‖W‖² and the scaling are the reference's terms. -/
theorem sumsqHT_ref (H : FVec Ideal S8192x10 .f32) :
    KTerm.sumsqHT (F := Ideal) H = Cert.ReferenceIdeal.RefTerm.sumsqHT (F := Ideal) H := rfl
theorem sumsqWT_ref (W : FVec Ideal S4096x10 .f32) :
    KTerm.sumsqWT (F := Ideal) W = Cert.ReferenceIdeal.RefTerm.sumsqWT (F := Ideal) W := rfl
theorem combine_ref (R T Q Wq : FVec Ideal S_ .f32) :
    KTerm.combine (F := Ideal) R T Q Wq = Cert.ReferenceIdeal.RefTerm.combine (F := Ideal) R T Q Wq := rfl

/-- The row index r put back over column c is (r, c). -/
theorem lift_r (h : S8192x10.Reduces [0] S10) (c : Fin 10) (r : Fin 8192) : h.lift (ix1 c) r = ix2 r c := by
  funext a; apply Fin.ext
  fin_cases a <;> rfl

/-- A list's index set is its one coordinate's range, -/
def idxEquiv1 {n : ℕ} : (⟨1, ![n]⟩ : Shape).Idx ≃ Fin n where
  toFun i := i 0
  invFun a := ix1 a
  left_inv i := (eq_ix1 i).symm
  right_inv _ := rfl

/-- so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- Column c of H summed from zero. -/
theorem colsumT_apply (H : FVec Ideal S8192x10 .f32) (c : Fin 10) :
    KTerm.colsumT (F := Ideal) H (ix1 c) = Recon.colsum H c := by
  unfold KTerm.colsumT Recon.colsum
  rw [hostReduceAdd_apply, Ideal.hostReduceAdd_single reducesTo_S8192x10_S10_d0 (by decide), zero_apply, zero_add]
  exact Finset.sum_congr rfl fun r _ => congrArg H (lift_r _ c r)

/-- The ten squared column sums summed from zero. -/
theorem colsqT_eq (H : FVec Ideal S8192x10 .f32) (j : S_.Idx) : KTerm.colsqT (F := Ideal) H j = Recon.colsq H := by
  unfold KTerm.colsqT Recon.colsq
  rw [hostReduceAdd_apply, Ideal.hostReduceAdd_total reducesTo_S10_S_d0 (fun b => b.elim0), zero_apply, zero_add, sum_idx1]
  refine Finset.sum_congr rfl fun c _ => ?_
  rw [mulf_apply, colsumT_apply]

/-- The call's 1 × 1 result read as a scalar is its one entry. -/
theorem out_scalar (out : FVec Ideal S1x1 .f32) (j : S_.Idx) :
    shapeCast S_ out shapeCasts_S1x1_S_ j = out (ix2 0 0) :=
  shapeCast_apply out shapeCasts_S1x1_S_ j (ix2 0 0) (by
    rw [Shape.rowMajor_val_two]
    have := (S_.rowMajor j).isLt
    show 0 * 1 + 0 = (S_.rowMajor j).val
    have h1 : S_.numel = 1 := by decide
    omega)

/-- The kernel program's loss of the call's result, W and H. -/
theorem tail_eq (out : FVec Ideal S1x1 .f32) (W : FVec Ideal S4096x10 .f32) (H : FVec Ideal S8192x10 .f32) :
    KTerm.tail (F := Ideal) out W H
      = fun _ => Recon.loss (out (ix2 0 0)) (Recon.colsq H) (Recon.sumsqH H) (Recon.sumsqW W) := by
  funext j
  unfold KTerm.tail
  rw [combine_ref, Cert.ReferenceIdeal.RefValue.combine_apply, out_scalar, colsqT_eq, sumsqHT_ref, sumsqWT_ref,
    Cert.ReferenceIdeal.RefValue.sumsqHT_eq, Cert.ReferenceIdeal.RefValue.sumsqWT_eq]

end Cert.KernelIdeal.KValue

end
-- ==== Proof.KRun.lean ====
/-
  The kernel program's run, read.  The call's 1 × 1 output array is written back once, after the last grid point,
  and that one block is the whole array: it ends holding what the output's staging buffer held then, the sum of the
  squared residuals over all of X.  The program's last lines then see that array, W and H as the call found them (no
  line after the call writes them), and leave the loss of the data in the result; the four arguments are never written.
-/
import proofs.«139351_j36524401885311_1_alg».proof.Proof.Gen.KernelIdeal.Frame
import proofs.«139351_j36524401885311_1_alg».proof.Proof.KTerm
import proofs.«139351_j36524401885311_1_alg».proof.Proof.KBlocks
import proofs.«139351_j36524401885311_1_alg».proof.Proof.KChain
import proofs.«139351_j36524401885311_1_alg».proof.Proof.KValue
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KRun

open Cert.KernelIdeal Cert.KernelIdeal.Gen Cert.KernelIdeal.KBlocks Cert.KernelIdeal.KChain

variable (m : (ℓ : Loc nD τ sig) → Buf (Elt Ideal) ℓ) (ρ : Dev nD → PrngReg)

/-- The output array's contents after the run: what the output's staging buffer held after the last grid point. -/
abbrev result (c : Dev nD) : Buf (Elt Ideal) ((c : Thread nD τ).loc main_v10) := outLast m c

/-- The one write-back, at the last grid point, writes it: the block at index (0, 0) of a 1 × 1 array is the array. -/
theorem flushed_eq (c : Dev nD) (t : Fin cfg0.N) (hf : (cfg0.win 3).flush t = true) :
    (dats m 0 c).flushed 3 t = ((cfg0.win 3).blk t).view.read (Elt Ideal) (result m c) := by
  have hN : cfg0.N = 32 := N_0
  have h31 : t.val = 31 := by have := (flush0_3 t).mp hf; have := t.isLt; omega
  obtain rfl : t = tLast := Fin.ext h31
  show (cfg0.win 3).cut (grid0.coords tLast) ((dats m 0 c).after 3 tLast) = _
  rw [after0_3]
  have hz' : (fun a => win0_3.index tLast a * main_v10.ty.shape.size a) = fun _ => 0 :=
    funext fun a => by fin_cases a <;> decide
  exact (Memref.read_access_unit_zero (Elt Ideal) main_v10 hz' (fun a => by rw [congrFun hz' a]; simp) (result m c)).symm

/-- So the output array ends holding it: that block covers the array's one index. -/
theorem final_out (c : Dev nD) : (dats m 0 c).arrAt 3 cfg0.N = result m c :=
  (dats m 0 c).arrAt_eq_of_cover 3 (result m c) (flushed_eq m c) fun i =>
    ⟨tLast, (flush0_3 tLast).mpr rfl, by
      show i ∈ ((View.whole main_v10).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat)
          ∧ (i 0 : Nat) < win0_3.index tLast 0 * win0_3.size 0 + win0_3.xsize (grid0.coords tLast) 0
        rw [show win0_3.index tLast 0 * win0_3.size 0 = 0 from by decide +kernel,
          show win0_3.xsize (grid0.coords tLast) 0 = 1 from by decide +kernel]
        omega
      | ⟨1, _⟩ =>
        show win0_3.index tLast 1 * win0_3.size 1 ≤ (i 1 : Nat)
          ∧ (i 1 : Nat) < win0_3.index tLast 1 * win0_3.size 1 + win0_3.xsize (grid0.coords tLast) 1
        rw [show win0_3.index tLast 1 * win0_3.size 1 = 0 from by decide +kernel,
          show win0_3.xsize (grid0.coords tLast) 1 = 1 from by decide +kernel]
        omega⟩

set_option maxHeartbeats 1600000 in
/-- The program's last lines, from the call's exit: the loss spelt over the output array, W and H. -/
theorem tail_val (c : Dev nD) :
    Pipeline.afterTail₀ cfgs (dats m) 0 (V0 m) [hostOps1] c main_v27
      = KTerm.tail (result m c) (warr m c) (harr m c) := by
  have e10 : Pipeline.withArrays (cfgs 0).spec c (V0 m c) (fun w => (dats m 0 c).arrAt w (cfgs 0).N)
      (Proc.devRef .tc main_v10) = result m c :=
    (Pipeline.withArrays_arr spec0 launch0.win.arr_inj c _ _ 3).trans (final_out m c)
  have e8 : Pipeline.withArrays (cfgs 0).spec c (V0 m c) (fun w => (dats m 0 c).arrAt w (cfgs 0).N)
      (Proc.devRef .tc main_v8) = warr m c :=
    (Pipeline.withArrays_arr spec0 launch0.win.arr_inj c _ _ 1).trans
      (((dats m 0 c).arrAt_in 1 rfl _).trans (A_eq m c 1))
  have e7 : Pipeline.withArrays (cfgs 0).spec c (V0 m c) (fun w => (dats m 0 c).arrAt w (cfgs 0).N)
      (Proc.devRef .tc main_v7) = harr m c :=
    Pipeline.withArrays_of_ne _ c (V0 m c) _ main_v7 (by decide)
  unfold Pipeline.afterTail₀
  show StableHlo.after hostOps1 _ (Proc.devRef .tc main_v27) = _
  after_results_simp
  rw [e10, e8, e7]
  rfl

/-- The loss of the data as the arguments give it: X, the weight matrix transposed, the clipped table's rows at the ids. -/
abbrev lossOf (c : Dev nD) : Buf (Elt Ideal) ((c : Thread nD τ).loc main_v27) := fun _ =>
  Recon.total (m ((c : Thread nD τ).loc main_arg0)) (KTerm.wemd (F := Ideal) (m ((c : Thread nD τ).loc main_arg2)))
    (KTerm.hemb (F := Ideal) (m ((c : Thread nD τ).loc main_arg1)) (m ((c : Thread nD τ).loc main_arg3)))

/-- The tail's value is that loss. -/
theorem tail_loss (c : Dev nD) :
    Pipeline.afterTail₀ cfgs (dats m) 0 (V0 m) [hostOps1] c main_v27 = lossOf m c := by
  rw [tail_val, KValue.tail_eq]
  funext j
  show Recon.loss (outLast m c (ix2 0 0)) _ _ _ = _
  rw [outLast_apply, xarr_eq, warr_eq, harr_eq]
  rfl

/-- The run, read: the result at the loss of the data, the four arguments unchanged. -/
theorem run : θ_run defs (onTc (τ := τ) (main (F := Ideal))) ⟨m, fun _ => 0, ρ⟩ fun r => ∀ c : Dev nD,
      r.2.mem ((c.tc : Thread nD τ).loc main_v27) = lossOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v27 (Pipeline.mem_restRefs_of main_v27 (by decide) (by decide))).trans (tail_loss m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KRun

end
-- ==== Proof.RefRun.lean ====
/-
  The reference is a straight line of host operations: its own, with the operations of the functions it calls
  (the clip to [0, 1]; the trace, which itself calls the selection) written at their call sites over each call's
  buffers. Its result is that line's composition applied to the four arguments, and nothing writes an argument.
-/
import proofs.«139351_j36524401885311_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The sixty operations of the reference in order: the two bounds; the clip's six (each bound converted to its own
    type, broadcast, the larger, the smaller); the ids made gather indices, the gather, the two transposes, the product,
    the residual, its square and sum, the division; the matrix of ones, the squares of H and their sum, the two
    products; the trace's eleven (the two counters, the zero offset added, the comparison, the zero matrix, the
    selection, the sum); and the scalar tail. -/
abbrev ops : List (HloOp τ sig (Elt F)) :=
  [ nullary main_cst (constant S_ .f32 0x00000000#32),
    nullary main_cst_0 (constant S_ .f32 0x3F800000#32),
    TRef.unary (.of main_cst) main_call0.v0 id,
    TRef.unary main_call0.v0 main_call0.v1 (broadcastInDim S100000x10 ![] bcast_S_S100000x10),
    TRef.binary main_call0.v1 (.of main_arg3) main_call0.v2 maximumf,
    TRef.unary (.of main_cst_0) main_call0.v3 id,
    TRef.unary main_call0.v3 main_call0.v4 (broadcastInDim S100000x10 ![] bcast_S_S100000x10),
    TRef.binary main_call0.v4 main_call0.v2 main_call0.v5 minimumf,
    nullary main_c (constantI S_ 32 0#32),
    unary main_c main_v1 (broadcastInDim S8192 ![] bcast_S_S8192 : (⟨S_, .i32⟩ : BufTy).Contents (Elt F) → (⟨S8192, .i32⟩ : BufTy).Contents (Elt F)),
    binary main_arg1 main_v1 main_v2 (cmpi .slt : (⟨S8192, .i32⟩ : BufTy).Contents (Elt F) → (⟨S8192, .i32⟩ : BufTy).Contents (Elt F) → (⟨S8192, .i1⟩ : BufTy).Contents (Elt F)),
    nullary main_c_1 (constantI S_ 32 100000#32),
    unary main_c_1 main_v3 (broadcastInDim S8192 ![] bcast_S_S8192 : (⟨S_, .i32⟩ : BufTy).Contents (Elt F) → (⟨S8192, .i32⟩ : BufTy).Contents (Elt F)),
    binary main_arg1 main_v3 main_v4 (addi : (⟨S8192, .i32⟩ : BufTy).Contents (Elt F) → (⟨S8192, .i32⟩ : BufTy).Contents (Elt F) → (⟨S8192, .i32⟩ : BufTy).Contents (Elt F)),
    ternary main_v2 main_v4 main_arg1 main_v5 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v5 main_v6 (broadcastInDim S8192x1 ![0] bcast_S8192_S8192x1_0 : (⟨S8192, .i32⟩ : BufTy).Contents (Elt F) → (⟨S8192x1, .i32⟩ : BufTy).Contents (Elt F)),
    binary main_v0 main_v6 main_v7 ((fun x i => Host.gather gather_S100000x10_S8192x1_S8192x10_1_0_n_n_0_1_110 x i) : (⟨S100000x10, .f32⟩ : BufTy).Contents (Elt F) → (⟨S8192x1, .i32⟩ : BufTy).Contents (Elt F) → (⟨S8192x10, .f32⟩ : BufTy).Contents (Elt F)),
    unary main_arg2 main_v8 ((transpose S4096x10 [1, 0] · transposes_S10x4096_S4096x10_1_0) : (⟨S10x4096, .f32⟩ : BufTy).Contents (Elt F) → (⟨S4096x10, .f32⟩ : BufTy).Contents (Elt F)),
    unary main_v7 main_v9 ((transpose S10x8192 [1, 0] · transposes_S8192x10_S10x8192_1_0) : (⟨S8192x10, .f32⟩ : BufTy).Contents (Elt F) → (⟨S10x8192, .f32⟩ : BufTy).Contents (Elt F)),
    binary main_v8 main_v9 main_v10 ((fun l r => Host.dotGeneral dot_S4096x10_S10x8192_S4096x8192_1_0_0_1_n_n none l r) : (⟨S4096x10, .f32⟩ : BufTy).Contents (Elt F) → (⟨S10x8192, .f32⟩ : BufTy).Contents (Elt F) → (⟨S4096x8192, .f32⟩ : BufTy).Contents (Elt F)),
    binary main_arg0 main_v10 main_v11 (subf : (⟨S4096x8192, .f32⟩ : BufTy).Contents (Elt F) → (⟨S4096x8192, .f32⟩ : BufTy).Contents (Elt F) → (⟨S4096x8192, .f32⟩ : BufTy).Contents (Elt F)),
    binary main_v11 main_v11 main_v12 (mulf : (⟨S4096x8192, .f32⟩ : BufTy).Contents (Elt F) → (⟨S4096x8192, .f32⟩ : BufTy).Contents (Elt F) → (⟨S4096x8192, .f32⟩ : BufTy).Contents (Elt F)),
    nullary main_cst_2 (constant S_ .f32 0x00000000#32),
    binary main_v12 main_cst_2 main_v13 ((fun x v => Host.reduceAdd x v reducesTo_S4096x8192_S_d0_1 h_S_) : (⟨S4096x8192, .f32⟩ : BufTy).Contents (Elt F) → (⟨S_, .f32⟩ : BufTy).Contents (Elt F) → (⟨S_, .f32⟩ : BufTy).Contents (Elt F)),
    nullary main_cst_3 (constant S_ .f32 0x46000000#32),
    binary main_v13 main_cst_3 main_v14 (Host.divf : (⟨S_, .f32⟩ : BufTy).Contents (Elt F) → (⟨S_, .f32⟩ : BufTy).Contents (Elt F) → (⟨S_, .f32⟩ : BufTy).Contents (Elt F)),
    nullary main_cst_4 (constant S_ .f32 0x3F800000#32),
    unary main_cst_4 main_v15 (broadcastInDim S8192x8192 ![] bcast_S_S8192x8192 : (⟨S_, .f32⟩ : BufTy).Contents (Elt F) → (⟨S8192x8192, .f32⟩ : BufTy).Contents (Elt F)),
    binary main_v7 main_v7 main_v16 (mulf : (⟨S8192x10, .f32⟩ : BufTy).Contents (Elt F) → (⟨S8192x10, .f32⟩ : BufTy).Contents (Elt F) → (⟨S8192x10, .f32⟩ : BufTy).Contents (Elt F)),
    nullary main_cst_5 (constant S_ .f32 0x00000000#32),
    binary main_v16 main_cst_5 main_v17 ((fun x v => Host.reduceAdd x v reducesTo_S8192x10_S_d0_1 h_S_) : (⟨S8192x10, .f32⟩ : BufTy).Contents (Elt F) → (⟨S_, .f32⟩ : BufTy).Contents (Elt F) → (⟨S_, .f32⟩ : BufTy).Contents (Elt F)),
    unary main_v7 main_v18 ((transpose S10x8192 [1, 0] · transposes_S8192x10_S10x8192_1_0) : (⟨S8192x10, .f32⟩ : BufTy).Contents (Elt F) → (⟨S10x8192, .f32⟩ : BufTy).Contents (Elt F)),
    binary main_v18 main_v15 main_v19 ((fun l r => Host.dotGeneral dot_S10x8192_S8192x8192_S10x8192_1_0_0_1_n_n none l r) : (⟨S10x8192, .f32⟩ : BufTy).Contents (Elt F) → (⟨S8192x8192, .f32⟩ : BufTy).Contents (Elt F) → (⟨S10x8192, .f32⟩ : BufTy).Contents (Elt F)),
    binary main_v19 main_v7 main_v20 ((fun l r => Host.dotGeneral dot_S10x8192_S8192x10_S10x10_1_0_0_1_n_n none l r) : (⟨S10x8192, .f32⟩ : BufTy).Contents (Elt F) → (⟨S8192x10, .f32⟩ : BufTy).Contents (Elt F) → (⟨S10x10, .f32⟩ : BufTy).Contents (Elt F)),
    TRef.nullary main_call1.v0 (iotaInDim S10x10 32 0),
    TRef.nullary main_call1.v1 (iotaInDim S10x10 32 1),
    TRef.nullary main_call1.c (constantI S_ 32 0#32),
    TRef.unary main_call1.c main_call1.v2 (broadcastInDim S10x10 ![] bcast_S_S10x10),
    TRef.binary main_call1.v0 main_call1.v2 main_call1.v3 addi,
    TRef.binary main_call1.v3 main_call1.v1 main_call1.v4 (cmpi .eq),
    TRef.nullary main_call1.cst (constant S_ .f32 0x00000000#32),
    TRef.unary main_call1.cst main_call1.v5 (broadcastInDim S10x10 ![] bcast_S_S10x10),
    TRef.ternary main_call1.v4 (.of main_v20) main_call1.v5 main_call1.call0.v0 select,
    TRef.nullary main_call1.cst_0 (constant S_ .f32 0x00000000#32),
    TRef.binary main_call1.call0.v0 main_call1.cst_0 main_call1.v7 (fun x v => Host.reduceAdd x v reducesTo_S10x10_S_d0_1 h_S_),
    binary main_v21 main_v17 main_v22 (subf : (⟨S_, .f32⟩ : BufTy).Contents (Elt F) → (⟨S_, .f32⟩ : BufTy).Contents (Elt F) → (⟨S_, .f32⟩ : BufTy).Contents (Elt F)),
    nullary main_cst_6 (constant S_ .f32 0x46000000#32),
    binary main_v22 main_cst_6 main_v23 (Host.divf : (⟨S_, .f32⟩ : BufTy).Contents (Elt F) → (⟨S_, .f32⟩ : BufTy).Contents (Elt F) → (⟨S_, .f32⟩ : BufTy).Contents (Elt F)),
    nullary main_cst_7 (constant S_ .f32 0x3F000000#32),
    binary main_cst_7 main_v23 main_v24 (mulf : (⟨S_, .f32⟩ : BufTy).Contents (Elt F) → (⟨S_, .f32⟩ : BufTy).Contents (Elt F) → (⟨S_, .f32⟩ : BufTy).Contents (Elt F)),
    binary main_v14 main_v24 main_v25 (addf : (⟨S_, .f32⟩ : BufTy).Contents (Elt F) → (⟨S_, .f32⟩ : BufTy).Contents (Elt F) → (⟨S_, .f32⟩ : BufTy).Contents (Elt F)),
    binary main_v8 main_v8 main_v26 (mulf : (⟨S4096x10, .f32⟩ : BufTy).Contents (Elt F) → (⟨S4096x10, .f32⟩ : BufTy).Contents (Elt F) → (⟨S4096x10, .f32⟩ : BufTy).Contents (Elt F)),
    nullary main_cst_8 (constant S_ .f32 0x00000000#32),
    binary main_v26 main_cst_8 main_v27 ((fun x v => Host.reduceAdd x v reducesTo_S4096x10_S_d0_1 h_S_) : (⟨S4096x10, .f32⟩ : BufTy).Contents (Elt F) → (⟨S_, .f32⟩ : BufTy).Contents (Elt F) → (⟨S_, .f32⟩ : BufTy).Contents (Elt F)),
    binary main_v17 main_v27 main_v28 (addf : (⟨S_, .f32⟩ : BufTy).Contents (Elt F) → (⟨S_, .f32⟩ : BufTy).Contents (Elt F) → (⟨S_, .f32⟩ : BufTy).Contents (Elt F)),
    nullary main_cst_9 (constant S_ .f32 0x3C23D70A#32),
    binary main_cst_9 main_v28 main_v29 (mulf : (⟨S_, .f32⟩ : BufTy).Contents (Elt F) → (⟨S_, .f32⟩ : BufTy).Contents (Elt F) → (⟨S_, .f32⟩ : BufTy).Contents (Elt F)),
    nullary main_cst_10 (constant S_ .f32 0x46000000#32),
    binary main_v29 main_cst_10 main_v30 (Host.divf : (⟨S_, .f32⟩ : BufTy).Contents (Elt F) → (⟨S_, .f32⟩ : BufTy).Contents (Elt F) → (⟨S_, .f32⟩ : BufTy).Contents (Elt F)),
    binary main_v25 main_v30 main_v31 (addf : (⟨S_, .f32⟩ : BufTy).Contents (Elt F) → (⟨S_, .f32⟩ : BufTy).Contents (Elt F) → (⟨S_, .f32⟩ : BufTy).Contents (Elt F)) ]

set_option maxRecDepth 4096 in
/-- The reference is that straight line: the called functions unfolded at their calls, both sides are one chain of
    steps once sequencing is re-associated. -/
theorem main_eq (c : Dev nD) : main (F := F) c = seq ops := by
  simp only [main, fn_clip.body, fn_trace.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., binary_bufs_sub .., binary_bufs_sub .., nullary_bufs_sub .., binary_bufs_sub ..,
    nullary_bufs_sub .., binary_bufs_sub .., nullary_bufs_sub .., unary_bufs_sub .., binary_bufs_sub .., nullary_bufs_sub ..,
    binary_bufs_sub .., unary_bufs_sub .., binary_bufs_sub .., binary_bufs_sub .., nullary_bufs_sub .., nullary_bufs_sub ..,
    nullary_bufs_sub .., unary_bufs_sub .., binary_bufs_sub .., binary_bufs_sub .., nullary_bufs_sub .., unary_bufs_sub ..,
    ternary_bufs_sub .., nullary_bufs_sub .., binary_bufs_sub .., binary_bufs_sub .., nullary_bufs_sub .., binary_bufs_sub ..,
    nullary_bufs_sub .., binary_bufs_sub .., binary_bufs_sub .., binary_bufs_sub .., nullary_bufs_sub .., binary_bufs_sub ..,
    binary_bufs_sub .., nullary_bufs_sub .., binary_bufs_sub .., nullary_bufs_sub .., binary_bufs_sub .., binary_bufs_sub ..⟩

attribute [local irreducible] Host.reduceAdd Host.gather in
set_option maxRecDepth 8192 in
set_option maxHeartbeats 400000 in
/-- The line's composition at the result buffer is the reference's term of the four arguments: each operation's
    result decides whether the buffer read is the one it writes, and the two conversions of the clip's bounds are
    the identity. -/
theorem result_eq (V : Valuation τ sig (Elt F)) :
    after ops V (main_v31 : DevRef τ sig)
      = Cert.ReferenceIdeal.RefTerm.result (V (main_arg0 : DevRef τ sig)) (V (main_arg1 : DevRef τ sig))
          (V (main_arg2 : DevRef τ sig)) (V (main_arg3 : DevRef τ sig)) := by
  simp only [after_cons, after_nil]
  rfl

/-- No operation writes the first argument. -/
theorem arg0_eq (V : Valuation τ sig (Elt F)) :
    after ops V (main_arg0 : DevRef τ sig) = V (main_arg0 : DevRef τ sig) := by
  simp only [after_cons, after_nil]
  rfl

/-- No operation writes the second argument. -/
theorem arg1_eq (V : Valuation τ sig (Elt F)) :
    after ops V (main_arg1 : DevRef τ sig) = V (main_arg1 : DevRef τ sig) := by
  simp only [after_cons, after_nil]
  rfl

/-- No operation writes the third argument. -/
theorem arg2_eq (V : Valuation τ sig (Elt F)) :
    after ops V (main_arg2 : DevRef τ sig) = V (main_arg2 : DevRef τ sig) := by
  simp only [after_cons, after_nil]
  rfl

/-- No operation writes the fourth argument. -/
theorem arg3_eq (V : Valuation τ sig (Elt F)) :
    after ops V (main_arg3 : DevRef τ sig) = V (main_arg3 : DevRef τ sig) := by
  simp only [after_cons, after_nil]
  rfl

/-- On every device, for any float values, from any memory with zero counters: every weakly fair execution of the
    reference terminates with its result at the reference's term of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
          = Cert.ReferenceIdeal.RefTerm.result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v31).trans (result_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq scopedRefs_eq scopedSems_eq defs main (fun _ => ops) main_eq (fun _ => ops_sub) m ρ)

end Cert.ReferenceIdeal.RefRun

end
-- ==== Proof.lean ====
/-
  The certificate: a tiled Pallas kernel for a factorization loss against its plain jnp statement.

  Both programs clip a table H_weight to [0, 1], pick its rows at the ids (a negative id counted from the end) to get
  H (8192 × 10), transpose W_weight to get W (4096 × 10), and return

      ‖X − W·Hᵀ‖² / n  +  ½ · (T − ‖H‖²) / n  +  0.01 · (‖H‖² + ‖W‖²) / n,        n = 8192.

  They differ in two places.  The reference sums the squared residuals of the whole 4096 × 8192 matrix at once; the
  kernel walks a 4 × 8 grid of 1024 × 1024 tiles, multiplies the matching blocks of W and Hᵀ, and adds each tile's sum
  into a one-entry accumulator that it resets at the first tile and copies out after the last.  Over the extended reals
  a finite sum may be regrouped freely, so the two totals agree (Proof/Tiles.lean, Proof/KChain.lean).  And for T the
  reference takes the trace of Hᵀ·𝟙·H with 𝟙 the 8192 × 8192 matrix of ones, the kernel's program the sum of the squared
  column sums of H.  Entry (c, c) of that product is Σ_s (Σ_r H r c)·H s c, and the column sum may be moved out of the
  sum over s because the entries of H are real numbers: each is an entry of a table clipped to [0, 1]
  (Proof/RefValue.lean).  Everything else is the same operations on the same words.

  The three programs run, and leave their arguments as they found them: the two kernel programs by their frames, the
  reference because it is a straight line of host operations none of which writes an argument (Proof/RefRun.lean).
  The idealization rewrote nothing, so there is nothing to preserve beyond the program's own text.
-/
import proofs.«139351_j36524401885311_1_alg».proof.Defs
import proofs.«139351_j36524401885311_1_alg».proof.Proof.Gen.Kernel
import proofs.«139351_j36524401885311_1_alg».proof.Proof.Gen.Kernel.Frame
import proofs.«139351_j36524401885311_1_alg».proof.Proof.Gen.KernelIdeal
import proofs.«139351_j36524401885311_1_alg».proof.Proof.Gen.KernelIdeal.Frame
import proofs.«139351_j36524401885311_1_alg».proof.Proof.Gen.ReferenceIdeal
import proofs.«139351_j36524401885311_1_alg».proof.Proof.Gen.Pre_finite_inputs
import proofs.«139351_j36524401885311_1_alg».proof.Proof.KRun
import proofs.«139351_j36524401885311_1_alg».proof.Proof.RefRun
import proofs.«139351_j36524401885311_1_alg».proof.Proof.RefValue
import Idealize.ShloMosaic.Adequacy
import Idealize.ShloMosaic.Init

noncomputable section

namespace Cert.Proof

open Idealize.ShloMosaic Idealize.SL.Sem

/-- The kernel program terminates without a fault and leaves its arguments unchanged, at the machine's words, -/
theorem frame_k : Cert.frame_Kernel := fun m ρ _ => Cert.Kernel.Gen.frame m ρ

/-- and at the ideal values. -/
theorem frame_ki : Cert.frame_KernelIdeal := fun m ρ _ => Cert.KernelIdeal.Gen.frame m ρ

/-- The reference is a straight line of host operations: it terminates, and none of them writes an argument. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization changed no operation. -/
theorem preserves : Cert.preserves_Kernel_KernelIdeal := trivial

/-- H and W are the same terms of the arguments in both programs. -/
theorem hemb_same (A1 : IVec Cert.KernelIdeal.S8192 32) (A3 : FVec Ideal Cert.KernelIdeal.S100000x10 .f32) :
    Cert.KernelIdeal.KTerm.hemb (F := Ideal) A1 A3 = Cert.ReferenceIdeal.RefTerm.hemb (F := Ideal) A1 A3 := rfl
theorem wemd_same (A2 : FVec Ideal Cert.KernelIdeal.S10x4096 .f32) :
    Cert.KernelIdeal.KTerm.wemd (F := Ideal) A2 = Cert.ReferenceIdeal.RefTerm.wemd (F := Ideal) A2 := rfl

/-- Run from memories that agree on the arguments, both programs end with the loss of the data in their result. -/
theorem algebraic : Cert.algebraic_KernelIdeal_ReferenceIdeal := by
  intro m ρ m' ρ' _ hagree
  refine ⟨fun c => Cert.KernelIdeal.KRun.lossOf m c, Cert.KernelIdeal.KRun.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  unfold Cert.ReferenceIdeal.RefTerm.result
  rw [Cert.ReferenceIdeal.RefValue.tail_eq _ _ _ (Cert.ReferenceIdeal.RefValue.hemb_real _ _)]
  show _ = Cert.KernelIdeal.KRun.lossOf m c
  unfold Cert.KernelIdeal.KRun.lossOf
  rw [hemb_same, wemd_same]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
